-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  main_v3
-- ==== Kernel.lean ====
abbrev S4096x50257 : Shape := ⟨2, ![4096, 50257]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S2x8x128 : Shape := ⟨3, ![2, 8, 128]⟩
abbrev S128x50257 : Shape := ⟨2, ![128, 50257]⟩
abbrev S1x8x128 : Shape := ⟨3, ![1, 8, 128]⟩
abbrev S8x128 : Shape := ⟨2, ![8, 128]⟩
abbrev S128x1 : Shape := ⟨2, ![128, 1]⟩
abbrev S128x2048 : Shape := ⟨2, ![128, 2048]⟩
abbrev S128 : Shape := ⟨1, ![128]⟩
abbrev S128x1105 : Shape := ⟨2, ![128, 1105]⟩
abbrev S1x128x1 : Shape := ⟨3, ![1, 128, 1]⟩
abbrev S1x1 : Shape := ⟨2, ![1, 1]⟩

abbrev nBuf : Space → Nat
  | .hbm => 38
  | .vmem => 5
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096, .f32⟩
  | .hbm, ⟨26, _⟩ => ⟨S_, .f32⟩
  | .hbm, ⟨27, _⟩ => ⟨S_, .f32⟩
  | .hbm, ⟨28, _⟩ => ⟨S2x8x128, .f32⟩
  | .hbm, ⟨29, _⟩ => ⟨S1x1x1, .f32⟩
  | .hbm, ⟨30, _⟩ => ⟨S_, .f32⟩
  | .hbm, ⟨31, _⟩ => ⟨S1x1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S128x50257, .f32⟩
  | .local _ .vmem, ⟨1, _⟩ => ⟨S128x50257, .f32⟩
  | .local _ .vmem, ⟨2, _⟩ => ⟨S1x8x128, .f32⟩
  | .local _ .vmem, ⟨3, _⟩ => ⟨S1x8x128, .f32⟩
  | .local _ .vmem, ⟨4, _⟩ => ⟨S8x128, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def k0_mult1 : BitVec 32 :=
  let c0_i32_2 : BitVec 32 := 0#32
  let c2048_i32 : BitVec 32 := 2048#32
  let v5 : BitVec 32 := Scalar.muli c0_i32_2 c2048_i32
  v5
def k0_off1 (c0_i32_2 : BitVec 32) : Fin 2 → Nat :=
  let c0 : Index := 0#32
  let c2048_i32 : BitVec 32 := 2048#32
  let v5 : BitVec 32 := Scalar.muli c0_i32_2 c2048_i32
  let v6 : BitVec 32 := v5
  let v7 : Index := Scalar.indexCast v6
  ![0, v7.toNat]
def k0_mult2 : BitVec 32 :=
  let c1_i32 : BitVec 32 := 1#32
  let c2048_i32_5 : BitVec 32 := 2048#32
  let v21 : BitVec 32 := Scalar.muli c1_i32 c2048_i32_5
  v21
def k0_mult3 : BitVec 32 :=
  let c2_i32 : BitVec 32 := 2#32
  let c2048_i32_9 : BitVec 32 := 2048#32
  let v37 : BitVec 32 := Scalar.muli c2_i32 c2048_i32_9
  v37
def k0_mult4 : BitVec 32 :=
  let c3_i32 : BitVec 32 := 3#32
  let c2048_i32_13 : BitVec 32 := 2048#32
  let v53 : BitVec 32 := Scalar.muli c3_i32 c2048_i32_13
  v53
def k0_mult5 : BitVec 32 :=
  let c4_i32 : BitVec 32 := 4#32
  let c2048_i32_17 : BitVec 32 := 2048#32
  let v69 : BitVec 32 := Scalar.muli c4_i32 c2048_i32_17
  v69
def k0_mult6 : BitVec 32 :=
  let c5_i32 : BitVec 32 := 5#32
  let c2048_i32_21 : BitVec 32 := 2048#32
  let v85 : BitVec 32 := Scalar.muli c5_i32 c2048_i32_21
  v85
def k0_mult7 : BitVec 32 :=
  let c6_i32 : BitVec 32 := 6#32
  let c2048_i32_25 : BitVec 32 := 2048#32
  let v101 : BitVec 32 := Scalar.muli c6_i32 c2048_i32_25
  v101
def k0_mult8 : BitVec 32 :=
  let c7_i32 : BitVec 32 := 7#32
  let c2048_i32_29 : BitVec 32 := 2048#32
  let v117 : BitVec 32 := Scalar.muli c7_i32 c2048_i32_29
  v117
def k0_mult9 : BitVec 32 :=
  let c8_i32 : BitVec 32 := 8#32
  let c2048_i32_33 : BitVec 32 := 2048#32
  let v133 : BitVec 32 := Scalar.muli c8_i32 c2048_i32_33
  v133
def k0_mult10 : BitVec 32 :=
  let c9_i32 : BitVec 32 := 9#32
  let c2048_i32_37 : BitVec 32 := 2048#32
  let v149 : BitVec 32 := Scalar.muli c9_i32 c2048_i32_37
  v149
def k0_mult11 : BitVec 32 :=
  let c10_i32 : BitVec 32 := 10#32
  let c2048_i32_41 : BitVec 32 := 2048#32
  let v165 : BitVec 32 := Scalar.muli c10_i32 c2048_i32_41
  v165
def k0_mult12 : BitVec 32 :=
  let c11_i32 : BitVec 32 := 11#32
  let c2048_i32_45 : BitVec 32 := 2048#32
  let v181 : BitVec 32 := Scalar.muli c11_i32 c2048_i32_45
  v181
def k0_mult13 : BitVec 32 :=
  let c12_i32 : BitVec 32 := 12#32
  let c2048_i32_49 : BitVec 32 := 2048#32
  let v197 : BitVec 32 := Scalar.muli c12_i32 c2048_i32_49
  v197
def k0_mult14 : BitVec 32 :=
  let c13_i32 : BitVec 32 := 13#32
  let c2048_i32_53 : BitVec 32 := 2048#32
  let v213 : BitVec 32 := Scalar.muli c13_i32 c2048_i32_53
  v213
def k0_mult15 : BitVec 32 :=
  let c14_i32 : BitVec 32 := 14#32
  let c2048_i32_57 : BitVec 32 := 2048#32
  let v229 : BitVec 32 := Scalar.muli c14_i32 c2048_i32_57
  v229
def k0_mult16 : BitVec 32 :=
  let c15_i32 : BitVec 32 := 15#32
  let c2048_i32_61 : BitVec 32 := 2048#32
  let v245 : BitVec 32 := Scalar.muli c15_i32 c2048_i32_61
  v245
def k0_mult17 : BitVec 32 :=
  let c16_i32 : BitVec 32 := 16#32
  let c2048_i32_65 : BitVec 32 := 2048#32
  let v261 : BitVec 32 := Scalar.muli c16_i32 c2048_i32_65
  v261
def k0_mult18 : BitVec 32 :=
  let c17_i32 : BitVec 32 := 17#32
  let c2048_i32_69 : BitVec 32 := 2048#32
  let v277 : BitVec 32 := Scalar.muli c17_i32 c2048_i32_69
  v277
def k0_mult19 : BitVec 32 :=
  let c18_i32 : BitVec 32 := 18#32
  let c2048_i32_73 : BitVec 32 := 2048#32
  let v293 : BitVec 32 := Scalar.muli c18_i32 c2048_i32_73
  v293
def k0_mult20 : BitVec 32 :=
  let c19_i32 : BitVec 32 := 19#32
  let c2048_i32_77 : BitVec 32 := 2048#32
  let v309 : BitVec 32 := Scalar.muli c19_i32 c2048_i32_77
  v309
def k0_mult21 : BitVec 32 :=
  let c20_i32 : BitVec 32 := 20#32
  let c2048_i32_81 : BitVec 32 := 2048#32
  let v325 : BitVec 32 := Scalar.muli c20_i32 c2048_i32_81
  v325
def k0_mult22 : BitVec 32 :=
  let c21_i32 : BitVec 32 := 21#32
  let c2048_i32_85 : BitVec 32 := 2048#32
  let v341 : BitVec 32 := Scalar.muli c21_i32 c2048_i32_85
  v341
def k0_mult23 : BitVec 32 :=
  let c22_i32 : BitVec 32 := 22#32
  let c2048_i32_89 : BitVec 32 := 2048#32
  let v357 : BitVec 32 := Scalar.muli c22_i32 c2048_i32_89
  v357
def k0_mult24 : BitVec 32 :=
  let c23_i32 : BitVec 32 := 23#32
  let c2048_i32_93 : BitVec 32 := 2048#32
  let v373 : BitVec 32 := Scalar.muli c23_i32 c2048_i32_93
  v373
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S4096x1_S4096 : S4096x1.ShapeCasts S4096
  reducesTo_S4096_S_d0 : S4096.ReducesTo [0] S_
  inb_S8x128_S8x128_0_0 : ∀ a, (![0, 0] : Fin 2 → Nat) a + S8x128.size a ≤ S8x128.size a
  h_S8x128 : 0 < S8x128.numel
  shapeCasts_S8x128_S8x128 : S8x128.ShapeCasts S8x128
  h_S128x2048 : 0 < S128x2048.numel
  reduces_S128x2048_S128 : S128x2048.Reduces [1] S128
  shapeCasts_S128_S128x1 : S128.ShapeCasts S128x1
  broadcasts_S128x1_S128x2048 : S128x1.Broadcasts S128x2048
  inb_S128x50257_S128x1105_0_49152 : ∀ a, (![0, 49152] : Fin 2 → Nat) a + S128x1105.size a ≤ S128x50257.size a
  h_S128x1105 : 0 < S128x1105.numel
  reduces_S128x1105_S128 : S128x1105.Reduces [1] S128
  broadcasts_S128x1_S128x1105 : S128x1.Broadcasts S128x1105
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  inb_S8x128_S1x1_0_0 : ∀ a, (![0, 0] : Fin 2 → Nat) a + S1x1.size a ≤ S8x128.size a
  h_S1x1 : 0 < S1x1.numel
  shapeCasts_S1x1_S1x1 : S1x1.ShapeCasts S1x1
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  gather_S4096x50257_S4096x1x1_S4096x1_n_1_0_0_1_2_11_wf : GatherDims.WF S4096x50257 S4096x1x1 S4096x1 [] [1] [0] [1] [0] 2 ![1, 1]
  hrank0 : 0 < grid0.rank
  k0_mult1_dvd : 2048 ∣ k0_mult1.toNat
  k0_off1_inb : ∀ (r : Fin 24), ∀ a, (k0_off1 (BitVec.ofNat 32 r.val)) a + S128x2048.size a ≤ S128x50257.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  k0_mult9_dvd : 2048 ∣ k0_mult9.toNat
  k0_mult10_dvd : 2048 ∣ k0_mult10.toNat
  k0_mult11_dvd : 2048 ∣ k0_mult11.toNat
  k0_mult12_dvd : 2048 ∣ k0_mult12.toNat
  k0_mult13_dvd : 2048 ∣ k0_mult13.toNat
  k0_mult14_dvd : 2048 ∣ k0_mult14.toNat
  k0_mult15_dvd : 2048 ∣ k0_mult15.toNat
  k0_mult16_dvd : 2048 ∣ k0_mult16.toNat
  k0_mult17_dvd : 2048 ∣ k0_mult17.toNat
  k0_mult18_dvd : 2048 ∣ k0_mult18.toNat
  k0_mult19_dvd : 2048 ∣ k0_mult19.toNat
  k0_mult20_dvd : 2048 ∣ k0_mult20.toNat
  k0_mult21_dvd : 2048 ∣ k0_mult21.toNat
  k0_mult22_dvd : 2048 ∣ k0_mult22.toNat
  k0_mult23_dvd : 2048 ∣ k0_mult23.toNat
  k0_mult24_dvd : 2048 ∣ k0_mult24.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x50257.size a ≤ S4096x50257.size a
  hwx0_0 : ∀ i : grid0.Coords, EltTy.bits .f32 = 32 ∨ (Rect.block (s := S4096x50257) S128x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .f32 = 32 ∨ (Rect.block (s := S2x8x128) S1x8x128.size (cc0_transform_1 i) (hinb0_1 i)).WholeWords (EltTy.packing .f32)

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

abbrev win0_0 : Pipeline.Window sig grid0 :=
  Pipeline.Window.ofSpec (Memref.whole main_arg0) S128x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x50257, .f32⟩
  | .hbm, ⟨9, _⟩ => ⟨S4096x50257, .f32⟩
  | .hbm, ⟨10, _⟩ => ⟨S4096x50257, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x50257, .f32⟩
  | .hbm, ⟨16, _⟩ => ⟨S4096x50257, .f32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.BodyTerm.lean ====
/-
  The kernel body's contribution at one grid point, as one term over the point's block of 128 rows.

  The body walks the block's 50257 columns in 24 chunks of 2048 and a last chunk of 1105, carrying the running row
  maxima and the running row sums of exponentials from chunk to chunk; after the last chunk it adds, over the 128
  rows, log (sum) + maximum, and leaves that one number in a [1, 1, 1] vector. The printed body computes this in
  nine stretches, each handing a few intermediate vectors to the next; `bodyOut` strings the stretches together.
-/
import proofs.«403744_j34471407518048_4_alg».proof.Proof.Gen.KernelIdeal.Skeleton
import Idealize.ShloMosaic.Lib.Pipeline.FrameBody

noncomputable section

namespace Cert.KernelIdeal.Body

open Cert.KernelIdeal Cert.KernelIdeal.Gen Idealize.ShloMosaic

variable {F : FTy → Type} [FloatOps F]

/-- Columns off .. off + 2047 of a block of 128 rows. -/
abbrev ck (x0 : Vec F S128x50257 .f32) (off : ℕ)
    (h : ∀ a, (![0, off] : Fin 2 → ℕ) a + S128x2048.size a ≤ S128x50257.size a) : Vec F S128x2048 .f32 :=
  View.ld x0 (Rect.unit (s := S128x50257) ![0, off] S128x2048.size h)

/-- The last 1105 columns, 49152 .. 50256. -/
abbrev ckTail (x0 : Vec F S128x50257 .f32) : Vec F S128x1105 .f32 :=
  View.ld x0 (Rect.unit (s := S128x50257) ![0, 49152] S128x1105.size (by decide))

/-- What the body adds to the accumulator at a point whose block is x0: the nine stretches in order. -/
def bodyOut (x0 : Vec F S128x50257 .f32) : FVec F S1x1x1 .f32 :=
  let c0 : Vec F S128x2048 .f32 := ck x0 0 (by decide)
  let c1 : Vec F S128x2048 .f32 := ck x0 2048 (by decide)
  let c2 : Vec F S128x2048 .f32 := ck x0 4096 (by decide)
  let c3 : Vec F S128x2048 .f32 := ck x0 6144 (by decide)
  let c4 : Vec F S128x2048 .f32 := ck x0 8192 (by decide)
  let c5 : Vec F S128x2048 .f32 := ck x0 10240 (by decide)
  let c6 : Vec F S128x2048 .f32 := ck x0 12288 (by decide)
  let c7 : Vec F S128x2048 .f32 := ck x0 14336 (by decide)
  let c8 : Vec F S128x2048 .f32 := ck x0 16384 (by decide)
  let c9 : Vec F S128x2048 .f32 := ck x0 18432 (by decide)
  let c10 : Vec F S128x2048 .f32 := ck x0 20480 (by decide)
  let c11 : Vec F S128x2048 .f32 := ck x0 22528 (by decide)
  let c12 : Vec F S128x2048 .f32 := ck x0 24576 (by decide)
  let c13 : Vec F S128x2048 .f32 := ck x0 26624 (by decide)
  let c14 : Vec F S128x2048 .f32 := ck x0 28672 (by decide)
  let c15 : Vec F S128x2048 .f32 := ck x0 30720 (by decide)
  let c16 : Vec F S128x2048 .f32 := ck x0 32768 (by decide)
  let c17 : Vec F S128x2048 .f32 := ck x0 34816 (by decide)
  let c18 : Vec F S128x2048 .f32 := ck x0 36864 (by decide)
  let c19 : Vec F S128x2048 .f32 := ck x0 38912 (by decide)
  let c20 : Vec F S128x2048 .f32 := ck x0 40960 (by decide)
  let c21 : Vec F S128x2048 .f32 := ck x0 43008 (by decide)
  let c22 : Vec F S128x2048 .f32 := ck x0 45056 (by decide)
  let c23 : Vec F S128x2048 .f32 := ck x0 47104 (by decide)
  let tl : Vec F S128x1105 .f32 := ckTail x0
  let v27 := k0_pay6 c0 c1
  let v36 := k0_pay7 c0 c1
  let v75 := k0_pay10 v27 c2 c3 c4
  let v84 := k0_pay11 v27 v36 c2 c3 c4
  let v123 := k0_pay14 v75 c5 c6 c7
  let v132 := k0_pay15 v75 v84 c5 c6 c7
  let v171 := k0_pay18 v123 c8 c9 c10
  let v174 := k0_pay19 v123 v132 c8 c9 c10
  let v177 := k0_pay20 v123 c8 c9 c10
  let v219 := k0_pay23 v171 c11 c12 c13
  let v222 := k0_pay24 v171 v174 v177 c11 c12 c13
  let v223 := k0_pay25 v171 c11 c12 c13
  let v260 := k0_pay28 c13 v219 v222 v223 c14 c15
  let v267 := k0_pay29 v219 c14 c15 c16
  let v268 := k0_pay30 v219 c14 c15 c16
  let v299 := k0_pay32 v267 c17 c18
  let v308 := k0_pay33 v260 c16 v267 v268 c17 c18
  let v313 := k0_pay34 c19
  let v347 := k0_pay37 v299 v313 c20 c21
  let v356 := k0_pay38 v299 v308 c19 v313 c20 c21
  k0_pay39 v347 v356 c22 c23 tl

end Cert.KernelIdeal.Body

end
-- ==== Proof.Pieces.lean ====
/-
  What one run of the kernel body leaves at the one accumulator entry that is ever read.

  The body adds its block's contribution to entry (0, 0) of an [8, 128] scratch accumulator — zeroed first when the
  point is the first of its half — and copies the accumulator into the output block. So after the body entry (0, 0)
  of the scratch, and entry (0, 0, 0) of the output block, hold the old entry (or 0) plus the block's contribution.
-/
import proofs.«403744_j34471407518048_4_alg».proof.Proof.Gen.KernelIdeal.Frame
import proofs.«403744_j34471407518048_4_alg».proof.Proof.BodyTerm
import Idealize.ShloMosaic.Lib.Pipeline.Value
import Idealize.ShloMosaic.Lib.ValueIdx
import Idealize.ShloMosaic.PureOps.Ideal.Laws

set_option maxRecDepth 65536

noncomputable section

namespace Cert.KernelIdeal.Body

open Cert.KernelIdeal Cert.KernelIdeal.Gen Idealize.ShloMosaic Idealize.ShloMosaic.TcCoe Idealize.ShloMosaic.Tactic
open Idealize.ShloMosaic.ValueIdx Idealize.SL Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- Entry (0, 0) of the accumulator is the one entry of its [1, 1] corner. -/
theorem corner_emb : (ix2 (0 : Fin 8) (0 : Fin 128) : S8x128.Idx)
    = (Rect.unit (s := S8x128) ![0, 0] S1x1.size inb_S8x128_S1x1_0_0).emb (ix2 (0 : Fin 1) (0 : Fin 1)) := by
  funext a; apply Fin.ext; match a with | ⟨0, _⟩ => rfl | ⟨1, _⟩ => rfl

/-- Read through the whole accumulator, entry (0, 0) is again the corner's one entry. -/
theorem whole_idx_corner :
    (Rect.unit (s := S8x128) ![0, 0] S8x128.size inb_S8x128_S8x128_0_0).toLoadRect.idx (ix2 (0 : Fin 8) (0 : Fin 128))
      = (Rect.unit (s := S8x128) ![0, 0] S1x1.size inb_S8x128_S1x1_0_0).emb (ix2 (0 : Fin 1) (0 : Fin 1)) := by
  funext a; apply Fin.ext; match a with | ⟨0, _⟩ => rfl | ⟨1, _⟩ => rfl

/-- The zeroing store's payload is 0 at every entry. -/
theorem zero_pay (y : S8x128.Idx) : k0_pay3 (F := Ideal) y = 0 := by
  unfold k0_pay3
  rw [shapeCast_self, broadcast_apply]
  exact Ideal.ofBits_zero_f32

/-- The one entry the body extracts from its [1, 1, 1] result is the result at (0, 0, 0); the nine stretches strung
    together are `bodyOut`. -/
theorem extract_at_zero {α : Type} (v : S1x1x1.Idx → α) :
    extractAt ![0, 0, 0] v inpos_S1x1x1_p0_0_0 = v (ix3 (0 : Fin 1) (0 : Fin 1) (0 : Fin 1)) := by
  unfold extractAt
  congr 1
  funext a; apply Fin.ext; match a with | ⟨0, _⟩ => rfl | ⟨1, _⟩ => rfl | ⟨2, _⟩ => rfl

/-- CASE A, the scratch: zeroed, then the block's contribution added at (0, 0). -/
theorem scratch_A (c : Dev nD) (i : grid0.Coords) (arg2 : Memref sig .tc .vmem S128x50257 .f32) (harg2 : arg2.IsWhole)
    (arg3 : Memref sig .tc .vmem S1x8x128 .f32) (harg3 : arg3.IsWhole) (arg4 : Memref sig .tc .vmem S8x128 .f32)
    (harg4 : arg4.IsWhole) (hc0 : cond0_0 i) (x0 : Vec Ideal S128x50257 .f32) :
    sout0_A_0 (F := Ideal) c i arg2 harg2 arg3 harg3 arg4 harg4 hc0 x0 (ix2 (0 : Fin 8) (0 : Fin 128))
      = 0 + bodyOut (F := Ideal) x0 (ix3 (0 : Fin 1) (0 : Fin 1) (0 : Fin 1)) := by
  unfold sout0_A_0
  rw [View.read_writes_eq_canon _ _ _ (scover0_A_0 c i arg2 harg2 arg3 harg3 arg4 harg4 hc0 x0)]
  unfold kernelRun0_A
  dsimp only
  sl_unfold_words
  rw [corner_emb, View.canon_cons_emb]
  unfold k0_pay1
  simp only [View.readAt_eq_ld, harg2.read_unread]
  rw [shapeCast_self, addf_apply, broadcast_apply, View.readCov_eq_canon', View.canon_unit_zero hz2]
  refine congrArg₂ (· + ·) ?_ ?_
  · exact zero_pay _
  · rw [extract_at_zero]; rfl

/-- CASE A, the output block: a copy of the scratch, so its entry (0, 0, 0) is the scratch's entry (0, 0). -/
theorem out_A (c : Dev nD) (i : grid0.Coords) (arg2 : Memref sig .tc .vmem S128x50257 .f32) (harg2 : arg2.IsWhole)
    (arg3 : Memref sig .tc .vmem S1x8x128 .f32) (harg3 : arg3.IsWhole) (arg4 : Memref sig .tc .vmem S8x128 .f32)
    (harg4 : arg4.IsWhole) (hc0 : cond0_0 i) (x0 : Vec Ideal S128x50257 .f32) :
    out0_A_1 (F := Ideal) c i arg2 harg2 arg3 harg3 arg4 harg4 hc0 x0 (ix3 (0 : Fin 1) (0 : Fin 8) (0 : Fin 128))
      = 0 + bodyOut (F := Ideal) x0 (ix3 (0 : Fin 1) (0 : Fin 1) (0 : Fin 1)) := by
  unfold out0_A_1
  rw [View.read_writes_eq_canon _ _ _ (cover0_A_1 c i arg2 harg2 arg3 harg3 arg4 harg4 hc0 x0)]
  unfold kernelRun0_A
  dsimp only
  sl_unfold_words
  rw [View.canon_unit_zero hz3]
  unfold k0_pay2
  rw [shapeCast_apply _ _ _ (ix2 (0 : Fin 8) (0 : Fin 128)) (by rw [Shape.rowMajor_val_two, Shape.rowMajor_val_three]; rfl),
    View.readCov_eq_canon']
  show View.canon _ ((Rect.unit (s := S8x128) ![0, 0] S8x128.size inb_S8x128_S8x128_0_0).toLoadRect.idx (ix2 (0 : Fin 8) (0 : Fin 128))) = _
  rw [whole_idx_corner, View.canon_cons_emb]
  unfold k0_pay1
  simp only [View.readAt_eq_ld, harg2.read_unread]
  rw [shapeCast_self, addf_apply, broadcast_apply, View.readCov_eq_canon', View.canon_unit_zero hz2]
  refine congrArg₂ (· + ·) ?_ ?_
  · exact zero_pay _
  · rw [extract_at_zero]; rfl

/-- CASE B, the scratch: the block's contribution added, at (0, 0), to what the point before left there. -/
theorem scratch_B (c : Dev nD) (i : grid0.Coords) (arg2 : Memref sig .tc .vmem S128x50257 .f32) (harg2 : arg2.IsWhole)
    (arg3 : Memref sig .tc .vmem S1x8x128 .f32) (harg3 : arg3.IsWhole) (arg4 : Memref sig .tc .vmem S8x128 .f32)
    (harg4 : arg4.IsWhole) (hc0 : ¬cond0_0 i) (x0 : Vec Ideal S128x50257 .f32) (xs0 : Vec Ideal S8x128 .f32) :
    sout0_B_0 (F := Ideal) c i arg2 harg2 arg3 harg3 arg4 harg4 hc0 x0 xs0 (ix2 (0 : Fin 8) (0 : Fin 128))
      = xs0 (ix2 (0 : Fin 8) (0 : Fin 128)) + bodyOut (F := Ideal) x0 (ix3 (0 : Fin 1) (0 : Fin 1) (0 : Fin 1)) := by
  unfold sout0_B_0
  unfold kernelRun0_B
  dsimp only
  sl_unfold_words
  rw [corner_emb, View.read_writes_cons_emb]
  unfold k0_pay1
  simp only [View.readAt_eq_ld, harg2.read_unread, harg4.read_unread]
  rw [shapeCast_self, addf_apply, broadcast_apply]
  refine congrArg₂ (· + ·) ?_ ?_
  · rfl
  · rw [extract_at_zero]; rfl

/-- CASE B, the output block: a copy of the scratch after the addition. -/
theorem out_B (c : Dev nD) (i : grid0.Coords) (arg2 : Memref sig .tc .vmem S128x50257 .f32) (harg2 : arg2.IsWhole)
    (arg3 : Memref sig .tc .vmem S1x8x128 .f32) (harg3 : arg3.IsWhole) (arg4 : Memref sig .tc .vmem S8x128 .f32)
    (harg4 : arg4.IsWhole) (hc0 : ¬cond0_0 i) (x0 : Vec Ideal S128x50257 .f32) (xs0 : Vec Ideal S8x128 .f32) :
    out0_B_1 (F := Ideal) c i arg2 harg2 arg3 harg3 arg4 harg4 hc0 x0 xs0 (ix3 (0 : Fin 1) (0 : Fin 8) (0 : Fin 128))
      = xs0 (ix2 (0 : Fin 8) (0 : Fin 128)) + bodyOut (F := Ideal) x0 (ix3 (0 : Fin 1) (0 : Fin 1) (0 : Fin 1)) := by
  unfold out0_B_1
  rw [View.read_writes_eq_canon _ _ _ (cover0_B_1 c i arg2 harg2 arg3 harg3 arg4 harg4 hc0 x0 xs0)]
  unfold kernelRun0_B
  dsimp only
  sl_unfold_words
  rw [View.canon_unit_zero hz3]
  unfold k0_pay2
  rw [shapeCast_apply _ _ _ (ix2 (0 : Fin 8) (0 : Fin 128)) (by rw [Shape.rowMajor_val_two, Shape.rowMajor_val_three]; rfl),
    View.readAt_eq_ld]
  show (arg4.view.read (Elt Ideal) _) ((Rect.unit (s := S8x128) ![0, 0] S8x128.size inb_S8x128_S8x128_0_0).toLoadRect.idx (ix2 (0 : Fin 8) (0 : Fin 128))) = _
  rw [whole_idx_corner, View.read_writes_cons_emb]
  unfold k0_pay1
  simp only [View.readAt_eq_ld, harg2.read_unread, harg4.read_unread]
  rw [shapeCast_self, addf_apply, broadcast_apply]
  refine congrArg₂ (· + ·) ?_ ?_
  · exact congrArg xs0 corner_emb.symm
  · rw [extract_at_zero]; rfl

end Cert.KernelIdeal.Body

end
-- ==== Proof.Accum.lean ====
/-
  The accumulator over the grid's points.

  The 32 points are walked in order; points 0..15 form the first half and 16..31 the second. The first point of a
  half zeroes the accumulator before adding its block's contribution, every other point adds to what the point before
  left. So after point n the accumulator's entry (0, 0) — and the output block's entry (0, 0, 0), a copy of it — holds
  the sum of the contributions of the points of n's half up to n.
-/
import proofs.«403744_j34471407518048_4_alg».proof.Proof.Pieces

set_option maxRecDepth 65536

noncomputable section

namespace Cert.KernelIdeal.Body

open Cert.KernelIdeal Cert.KernelIdeal.Gen Idealize.ShloMosaic Idealize.ShloMosaic.TcCoe
open Idealize.ShloMosaic.ValueIdx Idealize.SL Idealize.SL.Sem

variable (m : (ℓ : Loc nD τ sig) → Buf (Elt Ideal) ℓ)

/-- Point t's contribution: the body's result on the point's block of 128 rows (0 past the last point). -/
def contrib (c : Dev nD) (t : ℕ) : EReal :=
  if h : t < cfg0.N then bodyOut (F := Ideal) (iblk m c 0 ⟨t, h⟩) (ix3 (0 : Fin 1) (0 : Fin 1) (0 : Fin 1)) else 0

/-- The sum of the contributions of the points of n's half, up to n. -/
def partialSum (c : Dev nD) (n : ℕ) : EReal := ∑ k ∈ Finset.range (n % 16 + 1), contrib m c (n - n % 16 + k)

theorem contrib_lt (c : Dev nD) (t : ℕ) (h : t < cfg0.N) :
    contrib m c t = bodyOut (F := Ideal) (iblk m c 0 ⟨t, h⟩) (ix3 (0 : Fin 1) (0 : Fin 1) (0 : Fin 1)) := dif_pos h

/-- At the first point of a half the sum is that point's contribution alone. -/
theorem partialSum_first (c : Dev nD) (n : ℕ) (h0 : n % 16 = 0) : partialSum m c n = 0 + contrib m c n := by
  unfold partialSum
  rw [h0, Finset.sum_range_one, Nat.sub_zero, Nat.add_zero, zero_add]

/-- At any other point it is the sum up to the point before, plus the point's contribution. -/
theorem partialSum_next (c : Dev nD) (n : ℕ) (h0 : ¬(n + 1) % 16 = 0) :
    partialSum m c (n + 1) = partialSum m c n + contrib m c (n + 1) := by
  unfold partialSum
  have e1 : (n + 1) % 16 = n % 16 + 1 := by omega
  have e2 : n + 1 - (n % 16 + 1) = n - n % 16 := by omega
  have e3 : n - n % 16 + (n % 16 + 1) = n + 1 := by omega
  rw [e1, e2, Finset.sum_range_succ, e3]

/-- After point n the accumulator's entry (0, 0) and the output block's entry (0, 0, 0) hold the partial sum. -/
theorem acc_inv (c : Dev nD) : ∀ (n : ℕ) (h : n < cfg0.N),
    (outsAt0 m c n h).2 (ix2 (0 : Fin 8) (0 : Fin 128)) = partialSum m c n
      ∧ (outsAt0 m c n h).1 (ix3 (0 : Fin 1) (0 : Fin 8) (0 : Fin 128)) = partialSum m c n
  | 0, h => by
    have e := outsAt0_A m c ⟨0, h⟩ rfl
    dsimp only at e
    rw [e]; dsimp only
    rw [scratch_A, out_A, partialSum_first m c 0 rfl, contrib_lt m c 0 h]
    exact ⟨rfl, rfl⟩
  | n + 1, h => by
    by_cases h0 : (n + 1) % 16 = 0
    · have e := outsAt0_A m c ⟨n + 1, h⟩ h0
      dsimp only at e
      rw [e]; dsimp only
      rw [scratch_A, out_A, partialSum_first m c (n + 1) h0, contrib_lt m c (n + 1) h]
      exact ⟨rfl, rfl⟩
    · have e := outsAt0_B m c ⟨n + 1, h⟩ h0
      dsimp only at e
      rw [e]; dsimp only
      rw [scratch_B, out_B, partialSum_next m c n h0, contrib_lt m c (n + 1) h]
      have ih := (acc_inv c n (Nat.lt_of_succ_lt h)).1
      exact ⟨congrArg (· + _) ih, congrArg (· + _) ih⟩

end Cert.KernelIdeal.Body

end
-- ==== Proof.OutArray.lean ====
/-
  The result array of the kernel's region.

  The output block's index is the half's number g, the same for all 16 points of a half, so the block is written
  back once per half, after the half's last point 16 g + 15. The [2, 8, 128] result array therefore ends holding, in
  block g, what that point left in the output block; its entry (g, 0, 0) is the half's full partial sum.
-/
import proofs.«403744_j34471407518048_4_alg».proof.Proof.Accum

set_option maxRecDepth 65536

noncomputable section

namespace Cert.KernelIdeal.Body

open Cert.KernelIdeal Cert.KernelIdeal.Gen Idealize.ShloMosaic Idealize.ShloMosaic.TcCoe
open Idealize.ShloMosaic.ValueIdx Idealize.SL Idealize.SL.Sem
open Idealize.ShloMosaic.Pipeline (Dat)

variable (m : (ℓ : Loc nD τ sig) → Buf (Elt Ideal) ℓ)

/-- The output window's block index at point t: the point's half along axis 0, block 0 along the others. -/
theorem out_idx_facts : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)

/-- The output block is never clipped: it is [1, 8, 128] at every point. -/
theorem out_xsize_facts : ∀ t : Fin cfg0.N, win0_1.xsize (grid0.coords t) 0 = 1 ∧ win0_1.xsize (grid0.coords t) 1 = 8
    ∧ win0_1.xsize (grid0.coords t) 2 = 128 :=
  (by decide +kernel : ∀ t : Fin grid0.N, win0_1.xsize (grid0.coords t) 0 = 1 ∧ win0_1.xsize (grid0.coords t) 1 = 8
    ∧ win0_1.xsize (grid0.coords t) 2 = 128)

/-- The last point of half g is a point of the grid. -/
theorem lastPt_lt (g : Fin 2) : 16 * g.val + 15 < cfg0.N := by
  rw [show cfg0.N = 32 from N_0]; have := g.isLt; omega

/-- The output block's contents depend on the point's number only. -/
theorem outsAt0_congr (c : Dev nD) {n n' : ℕ} (e : n = n') (h : n < cfg0.N) (h' : n' < cfg0.N) :
    (outsAt0 m c n h).1 = (outsAt0 m c n' h').1 := by subst e; rfl

/-- What the result array ends holding: block g is what the half's last point left in the output block. -/
def outArr (c : Dev nD) : Vec Ideal S2x8x128 .f32 := fun j =>
  (outsAt0 m c (16 * (j 0 : Fin 2).val + 15) (lastPt_lt (j 0))).1 (ix3 (0 : Fin 1) (j 1 : Fin 8) (j 2 : Fin 128))

/-- The write-back after a half's last point writes that block. -/
theorem flushed_eq (c : Dev nD) (t : Fin cfg0.N) (hf : (cfg0.win 1).flush t = true) :
    (dats m 0 c).flushed 1 t = ((cfg0.win 1).blk t).view.read (Elt Ideal) (outArr m c) := by
  have hN : cfg0.N = 32 := N_0
  have h15 : t.val % 16 = 15 := (flush0_1 t).mp hf
  have hi := out_idx_facts t
  show (cfg0.win 1).cut (grid0.coords t) ((dats m 0 c).after 1 t) = _
  rw [after0_1]
  have hx := out_xsize_facts t
  funext y
  rw [View.read_apply]
  have y0 : (y 0).val < win0_1.xsize (grid0.coords t) 0 := (y 0).isLt
  have e : 16 * ((((cfg0.win 1).blk t).view.emb y) 0 : Fin 2).val + 15 = t.val := by
    show 16 * (win0_1.index t 0 * 1 + 1 * (y 0).val) + 15 = t.val
    rw [hi.1]; rw [hx.1] at y0; omega
  show (outsAt0 m c t.val t.isLt).1 ((cfg0.win 1).xinj (grid0.coords t) y) = outArr m c (((cfg0.win 1).blk t).view.emb y)
  unfold outArr
  rw [outsAt0_congr m c e.symm t.isLt (lastPt_lt ((((cfg0.win 1).blk t).view.emb y) 0))]
  refine congrArg _ ?_
  funext a
  apply Fin.ext
  match a with
  | ⟨0, _⟩ => show (y 0).val = 0; rw [hx.1] at y0; omega
  | ⟨1, _⟩ => show (y 1).val = win0_1.index t 1 * 8 + 1 * (y 1).val; rw [hi.2.1]; omega
  | ⟨2, _⟩ => show (y 2).val = win0_1.index t 2 * 128 + 1 * (y 2).val; rw [hi.2.2]; omega

/-- Every index of the result array lies in the block written back after its half's last point, so the array ends
    holding `outArr`. -/
theorem final_out (c : Dev nD) : (dats m 0 c).arrAt 1 cfg0.N = outArr m c :=
  (dats m 0 c).arrAt_eq_of_cover 1 (outArr m c) (flushed_eq m c) fun i => by
    have h0 : (i 0 : Nat) < 2 := (i 0).isLt
    have h1 : (i 1 : Nat) < 8 := (i 1).isLt
    have h2 : (i 2 : Nat) < 128 := (i 2).isLt
    have hT : 16 * (i 0 : Nat) + 15 < cfg0.N := by rw [show cfg0.N = 32 from N_0]; omega
    have hi := out_idx_facts ⟨16 * (i 0 : Nat) + 15, hT⟩
    have hx := out_xsize_facts ⟨16 * (i 0 : Nat) + 15, hT⟩
    refine ⟨⟨16 * (i 0 : Nat) + 15, hT⟩, (flush0_1 _).mpr (by show (16 * (i 0 : Nat) + 15) % 16 = 15; omega), ?_⟩
    show i ∈ ((View.whole main_v4).slice (win0_1.rect ⟨16 * (i 0 : Nat) + 15, hT⟩)).set
    rw [View.set_slice_whole, Rect.mem_set_unit]
    intro a
    match a with
    | ⟨0, _⟩ =>
      show win0_1.index ⟨16 * (i 0 : Nat) + 15, hT⟩ 0 * 1 ≤ (i 0 : Nat)
        ∧ (i 0 : Nat) < win0_1.index ⟨16 * (i 0 : Nat) + 15, hT⟩ 0 * 1 + win0_1.xsize (grid0.coords ⟨16 * (i 0 : Nat) + 15, hT⟩) 0
      rw [hi.1, hx.1]; dsimp only; omega
    | ⟨1, _⟩ =>
      show win0_1.index ⟨16 * (i 0 : Nat) + 15, hT⟩ 1 * 8 ≤ (i 1 : Nat)
        ∧ (i 1 : Nat) < win0_1.index ⟨16 * (i 0 : Nat) + 15, hT⟩ 1 * 8 + win0_1.xsize (grid0.coords ⟨16 * (i 0 : Nat) + 15, hT⟩) 1
      rw [hi.2.1, hx.2.1]; omega
    | ⟨2, _⟩ =>
      show win0_1.index ⟨16 * (i 0 : Nat) + 15, hT⟩ 2 * 128 ≤ (i 2 : Nat)
        ∧ (i 2 : Nat) < win0_1.index ⟨16 * (i 0 : Nat) + 15, hT⟩ 2 * 128 + win0_1.xsize (grid0.coords ⟨16 * (i 0 : Nat) + 15, hT⟩) 2
      rw [hi.2.2, hx.2.2]; omega

/-- Entry (g, 0, 0) of the result array is half g's full partial sum. -/
theorem out_entry (c : Dev nD) (g : Fin 2) :
    ((dats m 0 c).arrAt 1 cfg0.N : Vec Ideal S2x8x128 .f32) (ix3 g (0 : Fin 8) (0 : Fin 128))
      = partialSum m c (16 * g.val + 15) := by
  rw [final_out]
  exact (acc_inv m c (16 * g.val + 15) (lastPt_lt g)).2

end Cert.KernelIdeal.Body

end
-- ==== Proof.LibOnlineSoftmax.lean ====
/-
  The online softmax against the plain one, over the extended reals.

  A row of real logits is cut into n blocks of B columns. The online softmax walks the blocks keeping the
  running maximum m and the running sum l of the exponentials relative to it; a new block with maximum m₀ moves
  the state to (max m m₀, exp (m - max m m₀) · l + Σ_q exp (s q - max m m₀)). The state before the first block is
  (-∞, 0). After the last block the state is (M, Σ exp (s - M)) with M the maximum of the whole row, so
  m + log l is the row's log-sum-exp, and the cross-entropy term read off it equals the one read off the
  plain log-softmax over all n · B columns.
-/
import Idealize.ShloMosaic.PureOps.Ideal
import Mathlib.Data.Finset.Fold
import Mathlib.Algebra.BigOperators.Fin
import Mathlib.Logic.Equiv.Fin.Basic
import Mathlib.Analysis.SpecialFunctions.Log.Basic
import Mathlib.Analysis.SpecialFunctions.Exp

noncomputable section

namespace OnlineSoftmax

open Idealize.ShloMosaic

/-! ### Coercion facts -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the binary maximum. -/
theorem coe_max (x y : ℝ) : ((max x y : ℝ) : EReal) = max (x : EReal) (y : EReal) :=
  EReal.coe_strictMono.monotone.map_max

/-- The maximum of a nonempty finite family of reals, folded from -∞ in the extended reals, is the real
    maximum of the family: it bounds the family, is attained, and is the fold's value. -/
theorem fold_max_real {N : ℕ} (hN : 0 < N) (f : Fin N → ℝ) :
    ∃ M : ℝ, (∀ j, f j ≤ M) ∧ (∃ j, f j = M) ∧
      Finset.univ.fold max (⊥ : EReal) (fun j => ((f j : ℝ) : EReal)) = (M : EReal) := by
  obtain ⟨j0, -, hj0⟩ := Finset.exists_max_image Finset.univ f ⟨⟨0, hN⟩, Finset.mem_univ _⟩
  refine ⟨f j0, fun j => hj0 j (Finset.mem_univ j), ⟨j0, rfl⟩, le_antisymm ?_ ?_⟩
  · rw [Finset.fold_max_le]
    exact ⟨bot_le, fun x _ => EReal.coe_le_coe_iff.mpr (hj0 x (Finset.mem_univ x))⟩
  · rw [Finset.le_fold_max]
    exact Or.inr ⟨j0, Finset.mem_univ _, le_rfl⟩

/-! ### The online softmax's state -/

/-- One step of the online softmax: the state (m, l) — the running maximum and the running sum of the
    exponentials relative to it — meets a block of B columns. The new maximum m' is the larger of m and the
    block's maximum; the old sum is rescaled by exp (m - m') and the block's exponentials relative to m' are
    added. -/
def upd {B : ℕ} (row : Fin B → EReal) (ml : EReal × EReal) : EReal × EReal :=
  let m' := max ml.1 (Finset.univ.fold max (⊥ : EReal) row)
  (m', Ideal.exp (ml.1 - m') * ml.2 + ∑ q, Ideal.exp (row q - m'))

/-- The online softmax's state after the first k blocks of the row s; before the first block it is
    (-∞, 0). -/
def acc {B : ℕ} (s : ℕ → Fin B → EReal) : ℕ → EReal × EReal
  | 0 => (⊥, 0)
  | k + 1 => upd (s k) (acc s k)

/-- The new running maximum of a step. -/
theorem upd_fst {B : ℕ} (row : Fin B → EReal) (ml : EReal × EReal) :
    (upd row ml).1 = max ml.1 (Finset.univ.fold max (⊥ : EReal) row) := rfl

/-- The new running sum of a step. -/
theorem upd_snd {B : ℕ} (row : Fin B → EReal) (ml : EReal × EReal) :
    (upd row ml).2 = Ideal.exp (ml.1 - (upd row ml).1) * ml.2 + ∑ q, Ideal.exp (row q - (upd row ml).1) := rfl

/-- The state before the first block. -/
theorem acc_zero {B : ℕ} (s : ℕ → Fin B → EReal) : acc s 0 = (⊥, 0) := rfl

/-- The state after one more block. -/
theorem acc_succ {B : ℕ} (s : ℕ → Fin B → EReal) (k : ℕ) : acc s (k + 1) = upd (s k) (acc s k) := rfl

/-- The exponentials of a real block relative to a real maximum sum to a real. -/
theorem sum_exp_coe {B : ℕ} (row : Fin B → ℝ) (M : ℝ) :
    ∑ q, Ideal.exp (((row q : ℝ) : EReal) - (M : EReal)) = ((∑ q, Real.exp (row q - M) : ℝ) : EReal) := by
  rw [coe_sum]
  refine Finset.sum_congr rfl fun q _ => ?_
  rw [← EReal.coe_sub, Ideal.exp_coe]

/-- After k ≥ 1 blocks of real logits the state is real: the running maximum is the maximum M of the logits
    seen so far (it bounds them and is attained) and the running sum is Σ exp (s - M) over them. -/
theorem acc_real {B : ℕ} (hB : 0 < B) (s : ℕ → Fin B → ℝ) (k : ℕ) (hk : 0 < k) :
    ∃ M : ℝ, (∀ j, j < k → ∀ q, s j q ≤ M) ∧ (∃ j, j < k ∧ ∃ q, s j q = M) ∧
      (acc (fun j q => ((s j q : ℝ) : EReal)) k).1 = (M : EReal) ∧
      (acc (fun j q => ((s j q : ℝ) : EReal)) k).2
        = ((∑ j ∈ Finset.range k, ∑ q, Real.exp (s j q - M) : ℝ) : EReal) := by
  obtain ⟨k, rfl⟩ : ∃ k', k = k' + 1 := ⟨k - 1, by omega⟩
  clear hk
  induction k with
  | zero =>
    obtain ⟨M, hle, ⟨q0, hq0⟩, hM⟩ := fold_max_real hB (s 0)
    have h1 : (acc (fun j q => ((s j q : ℝ) : EReal)) (0 + 1)).1 = (M : EReal) := by
      rw [acc_succ, upd_fst, acc_zero, hM]; exact max_eq_right bot_le
    refine ⟨M, ?_, ⟨0, Nat.zero_lt_one, q0, hq0⟩, h1, ?_⟩
    · intro j hj q
      obtain rfl : j = 0 := by omega
      exact hle q
    · have hu : (upd (fun q => ((s 0 q : ℝ) : EReal)) (acc (fun j q => ((s j q : ℝ) : EReal)) 0)).1
          = (M : EReal) := h1
      rw [acc_succ, upd_snd, hu, acc_zero, mul_zero, zero_add, sum_exp_coe, Finset.sum_range_one]
  | succ k ih =>
    obtain ⟨M, hle, ⟨j1, hj1, q1, hq1⟩, h1, h2⟩ := ih
    obtain ⟨Mk, hlek, ⟨q0, hq0⟩, hMk⟩ := fold_max_real hB (s (k + 1))
    have h1' : (acc (fun j q => ((s j q : ℝ) : EReal)) (k + 1 + 1)).1 = ((max M Mk : ℝ) : EReal) := by
      rw [acc_succ, upd_fst, h1, hMk, coe_max]
    refine ⟨max M Mk, ?_, ?_, h1', ?_⟩
    · intro j hj q
      rcases Nat.lt_succ_iff_lt_or_eq.mp hj with h | rfl
      · exact le_trans (hle j h q) (le_max_left _ _)
      · exact le_trans (hlek q) (le_max_right _ _)
    · rcases le_total M Mk with h | h
      · exact ⟨k + 1, Nat.lt_succ_self _, q0, by rw [hq0, max_eq_right h]⟩
      · exact ⟨j1, Nat.lt_succ_of_lt hj1, q1, by rw [hq1, max_eq_left h]⟩
    · have hu : (upd (fun q => ((s (k + 1) q : ℝ) : EReal))
          (acc (fun j q => ((s j q : ℝ) : EReal)) (k + 1))).1 = ((max M Mk : ℝ) : EReal) := h1'
      rw [acc_succ, upd_snd, hu, h1, h2, sum_exp_coe, ← EReal.coe_sub, Ideal.exp_coe,
        ← EReal.coe_mul, ← EReal.coe_add, Finset.sum_range_succ _ (k + 1), Finset.mul_sum]
      congr 2
      refine Finset.sum_congr rfl fun j _ => ?_
      rw [Finset.mul_sum]
      refine Finset.sum_congr rfl fun q _ => ?_
      rw [← Real.exp_add]
      congr 1
      ring

/-! ### The blocks of a row -/

/-- Column q of block j lies in the row: j · B + q < n · B for j < n. -/
theorem blk_lt {n B j : ℕ} (h : j < n) (q : Fin B) : j * B + q.val < n * B :=
  calc j * B + q.val < j * B + B := Nat.add_lt_add_left q.isLt _
    _ = (j + 1) * B := (Nat.succ_mul j B).symm
    _ ≤ n * B := Nat.mul_le_mul_right B h

/-- A sum over the n · B columns of a row is the sum over its n blocks of the sums over each block's B
    columns, column q of block j being column j · B + q. -/
theorem sum_blocks {n B : ℕ} (g : Fin (n * B) → ℝ) :
    ∑ j : Fin n, ∑ q : Fin B, g ⟨j.val * B + q.val, blk_lt j.isLt q⟩ = ∑ c : Fin (n * B), g c := by
  rw [← Fintype.sum_prod_type'
    (f := fun (j : Fin n) (q : Fin B) => g ⟨j.val * B + q.val, blk_lt j.isLt q⟩)]
  refine Fintype.sum_equiv finProdFinEquiv _ _ fun p => ?_
  congr 1
  apply Fin.ext
  simp [finProdFinEquiv, mul_comm, add_comm]

/-- The same with the blocks counted by a natural number below n and the row's columns read through a
    function F: the block-wise double sum of F over the row is the sum of F over all n · B columns. -/
theorem sum_range_blocks {n B : ℕ} (sf : Fin (n * B) → ℝ) (F : ℝ → ℝ) :
    ∑ j ∈ Finset.range n, ∑ q : Fin B, F (if h : j < n then sf ⟨j * B + q.val, blk_lt h q⟩ else 0)
      = ∑ c : Fin (n * B), F (sf c) := by
  rw [← sum_blocks (fun c => F (sf c)), ← Fin.sum_univ_eq_sum_range
    (fun j => ∑ q : Fin B, F (if h : j < n then sf ⟨j * B + q.val, blk_lt h q⟩ else 0)) n]
  refine Finset.sum_congr rfl fun j _ => Finset.sum_congr rfl fun q _ => ?_
  rw [dif_pos j.isLt]

/-! ### The cross-entropy term of a row -/

/-- The online softmax's final state over the n blocks of a row of n · B real logits sf (column q of block j
    is column j · B + q): the running maximum is the row's maximum M — it bounds the row, is attained, and is
    the value of the row's fold from -∞ — and the running sum is Σ_c exp (sf c - M) over all the columns. -/
theorem acc_row {n B : ℕ} (hn : 0 < n) (hB : 0 < B) (sf : Fin (n * B) → ℝ) :
    ∃ M : ℝ, (∀ c, sf c ≤ M) ∧ (∃ c, sf c = M) ∧
      Finset.univ.fold max (⊥ : EReal) (fun j => ((sf j : ℝ) : EReal)) = (M : EReal) ∧
      (acc (fun j (q : Fin B) =>
        (((if h : j < n then sf ⟨j * B + q.val, blk_lt h q⟩ else 0 : ℝ)) : EReal)) n).1 = (M : EReal) ∧
      (acc (fun j (q : Fin B) =>
        (((if h : j < n then sf ⟨j * B + q.val, blk_lt h q⟩ else 0 : ℝ)) : EReal)) n).2
          = ((∑ c, Real.exp (sf c - M) : ℝ) : EReal) := by
  obtain ⟨M, hMle, ⟨jM, hjM, qM, hqM⟩, ha1, ha2⟩ :=
    acc_real hB (fun j q => if h : j < n then sf ⟨j * B + q.val, blk_lt h q⟩ else 0) n hn
  obtain ⟨M', hM'le, ⟨c0, hc0⟩, hM'⟩ := fold_max_real (Nat.mul_pos hn hB) sf
  -- the blocks' maximum is the row's maximum
  have hMM : M' = M := by
    apply le_antisymm
    · rw [← hc0]
      have hdiv : c0.val / B < n := Nat.div_lt_of_lt_mul (lt_of_lt_of_eq c0.isLt (Nat.mul_comm n B))
      have hb : (if h : c0.val / B < n then
          sf ⟨c0.val / B * B + c0.val % B, blk_lt h ⟨c0.val % B, Nat.mod_lt _ hB⟩⟩ else 0) ≤ M :=
        hMle (c0.val / B) hdiv ⟨c0.val % B, Nat.mod_lt _ hB⟩
      rw [dif_pos hdiv] at hb
      have hc : (⟨c0.val / B * B + c0.val % B, blk_lt hdiv ⟨c0.val % B, Nat.mod_lt _ hB⟩⟩ : Fin (n * B))
          = c0 := Fin.ext (Nat.div_add_mod' _ _)
      rw [hc] at hb
      exact hb
    · rw [← hqM]
      show (if h : jM < n then sf ⟨jM * B + qM.val, blk_lt h qM⟩ else 0) ≤ M'
      rw [dif_pos hjM]
      exact hM'le _
  subst hMM
  refine ⟨M', hM'le, ⟨c0, hc0⟩, hM', ha1, ?_⟩
  -- the blocks' sum of exponentials is the row's
  rw [ha2, sum_range_blocks sf (fun x => Real.exp (x - M'))]

/-- The cross-entropy term of one row of n · B real logits sf with label weight lab at column i. On the left
    the row's log-sum-exp is m + log l for the online softmax's final state (m, l) over the n blocks of B
    columns (column q of block j is column j · B + q); on the right it is the plain log-softmax: the maximum
    Mref over all columns (folded from -∞), the logits shifted by it, and a sum over the columns in which only
    column i carries the label weight. The two are equal. -/
theorem row_loss {n B : ℕ} (hn : 0 < n) (hB : 0 < B) (sf : Fin (n * B) → ℝ) (lab : ℝ) (i : Fin (n * B)) :
    let sb : ℕ → Fin B → ℝ := fun j q => if h : j < n then sf ⟨j * B + q.val, blk_lt h q⟩ else 0
    let a := acc (fun j q => ((sb j q : ℝ) : EReal)) n
    let Mref : EReal := max ⊥ (Finset.univ.fold max (⊥ : EReal) (fun j => ((sf j : ℝ) : EReal)))
    (0 - (lab : EReal)) * (((sf i : ℝ) : EReal) - (a.1 + Ideal.log a.2))
      = (0 : EReal) + ∑ j : Fin (n * B), (-(if j = i then (lab : EReal) else 0)) *
          ((((sf j : ℝ) : EReal) - Mref) - Ideal.log ((0 : EReal) +
            ∑ j' : Fin (n * B), Ideal.exp (((sf j' : ℝ) : EReal) - Mref))) := by
  intro sb a Mref
  obtain ⟨M, -, -, hM, ha1, ha2⟩ := acc_row hn hB sf
  have hSpos : 0 < ∑ c, Real.exp (sf c - M) :=
    Finset.sum_pos (fun _ _ => Real.exp_pos _) ⟨i, Finset.mem_univ _⟩
  have ha1' : a.1 = (M : EReal) := ha1
  have ha2' : a.2 = ((∑ c, Real.exp (sf c - M) : ℝ) : EReal) := ha2
  have hMref : Mref = (M : EReal) := by
    show max ⊥ (Finset.univ.fold max (⊥ : EReal) (fun j => ((sf j : ℝ) : EReal))) = (M : EReal)
    rw [hM, max_eq_right bot_le]
  have hlog : Ideal.log ((∑ c, Real.exp (sf c - M) : ℝ) : EReal)
      = ((Real.log (∑ c, Real.exp (sf c - M)) : ℝ) : EReal) := by
    rw [Ideal.log_coe, if_neg (not_le.mpr hSpos)]
  rw [ha1', ha2', hMref, zero_add, zero_add, sum_exp_coe, hlog]
  refine Eq.trans ?_ (Finset.sum_eq_single i ?_ ?_).symm
  · have hr : sf i - (M + Real.log (∑ c, Real.exp (sf c - M)))
        = sf i - M - Real.log (∑ c, Real.exp (sf c - M)) := by ring
    rw [if_pos rfl, zero_sub, ← EReal.coe_add, ← EReal.coe_sub, ← EReal.coe_sub, ← EReal.coe_sub, hr]
  · intro j _ hji
    rw [if_neg hji, neg_zero, ← EReal.coe_sub, ← EReal.coe_sub, zero_mul]
  · intro h
    exact absurd (Finset.mem_univ i) h

end OnlineSoftmax
-- ==== Proof.LibRaggedSoftmax.lean ====
/-
  The online softmax over blocks whose entries are real or -∞, and over a ragged row.

  The online softmax walks a row block by block keeping the running maximum m and the running sum l of the
  exponentials relative to it (`OnlineSoftmax.upd`, `OnlineSoftmax.acc`). Here a block's column is either a real
  logit or -∞, with at least one real column in every block. A column at -∞ is neutral for the block's maximum
  and adds exp (-∞ - M) = exp (-∞) = 0 to the block's sum of exponentials, so after k ≥ 1 blocks the state is
  (M, Σ exp (s - M)) with M the maximum of, and the sum taken over, the real logits seen so far.

  A ragged row is the case in point: N real logits are walked in n blocks of B columns with n · B ≥ N, the
  last block being only partly inside the row and its columns past N standing at -∞. If every block starts
  inside the row, the final state is (M, Σ_c exp (x c - M)) with M the maximum of the N logits, the same as the
  plain softmax's maximum folded from -∞ and its sum over all N columns.
-/
import proofs.«403744_j34471407518048_4_alg».proof.Proof.LibOnlineSoftmax

noncomputable section

namespace OnlineSoftmax

open Idealize.ShloMosaic

/-! ### Blocks whose columns are real or -∞ -/

/-- The maximum, folded from -∞, of a block whose column q is the real f q where p q holds and -∞ elsewhere, with
    at least one column where p holds: it is the real maximum of f over p (it bounds f there and is attained
    there). -/
theorem fold_max_masked {B : ℕ} (p : Fin B → Prop) [DecidablePred p] (f : Fin B → ℝ) (hp : ∃ q, p q) :
    ∃ M : ℝ, (∀ q, p q → f q ≤ M) ∧ (∃ q, p q ∧ f q = M) ∧
      Finset.univ.fold max (⊥ : EReal) (fun q => if p q then ((f q : ℝ) : EReal) else ⊥) = (M : EReal) := by
  obtain ⟨q1, hq1⟩ := hp
  obtain ⟨q0, hq0mem, hq0⟩ := Finset.exists_max_image (Finset.univ.filter p) f
    ⟨q1, Finset.mem_filter.mpr ⟨Finset.mem_univ _, hq1⟩⟩
  have hp0 : p q0 := (Finset.mem_filter.mp hq0mem).2
  have hle : ∀ q, p q → f q ≤ f q0 := fun q hq => hq0 q (Finset.mem_filter.mpr ⟨Finset.mem_univ _, hq⟩)
  refine ⟨f q0, hle, ⟨q0, hp0, rfl⟩, le_antisymm ?_ ?_⟩
  · rw [Finset.fold_max_le]
    refine ⟨bot_le, fun y _ => ?_⟩
    by_cases hy : p y
    · rw [if_pos hy]; exact EReal.coe_le_coe_iff.mpr (hle y hy)
    · rw [if_neg hy]; exact bot_le
  · rw [Finset.le_fold_max]
    exact Or.inr ⟨q0, Finset.mem_univ _, by rw [if_pos hp0]⟩

/-- The exponentials of such a block relative to a real maximum sum to a real: a column at -∞ adds
    exp (-∞ - M) = exp (-∞) = 0. -/
theorem sum_exp_masked {B : ℕ} (p : Fin B → Prop) [DecidablePred p] (f : Fin B → ℝ) (M : ℝ) :
    ∑ q, Ideal.exp ((if p q then ((f q : ℝ) : EReal) else ⊥) - (M : EReal))
      = ((∑ q, (if p q then Real.exp (f q - M) else 0) : ℝ) : EReal) := by
  rw [coe_sum]
  refine Finset.sum_congr rfl fun q _ => ?_
  by_cases hq : p q
  · rw [if_pos hq, if_pos hq, ← EReal.coe_sub, Ideal.exp_coe]
  · rw [if_neg hq, if_neg hq, EReal.bot_sub, Ideal.exp_bot, EReal.coe_zero]

/-- After k ≥ 1 blocks whose columns are real where p holds and -∞ elsewhere, each block holding at least one
    real column, the state is real: the running maximum is the maximum M of the real logits seen so far (it
    bounds them and is attained) and the running sum is Σ exp (s - M) over them. -/
theorem acc_masked {B : ℕ} (p : ℕ → Fin B → Prop) [∀ j, DecidablePred (p j)] (s : ℕ → Fin B → ℝ) (k : ℕ)
    (hk : 0 < k) (hp : ∀ j, j < k → ∃ q, p j q) :
    ∃ M : ℝ, (∀ j, j < k → ∀ q, p j q → s j q ≤ M) ∧ (∃ j, j < k ∧ ∃ q, p j q ∧ s j q = M) ∧
      (acc (fun j q => if p j q then ((s j q : ℝ) : EReal) else ⊥) k).1 = (M : EReal) ∧
      (acc (fun j q => if p j q then ((s j q : ℝ) : EReal) else ⊥) k).2
        = ((∑ j ∈ Finset.range k, ∑ q, (if p j q then Real.exp (s j q - M) else 0) : ℝ) : EReal) := by
  obtain ⟨k, rfl⟩ : ∃ k', k = k' + 1 := ⟨k - 1, by omega⟩
  clear hk
  induction k with
  | zero =>
    obtain ⟨M, hle, ⟨q0, hp0, hq0⟩, hM⟩ := fold_max_masked (p 0) (s 0) (hp 0 Nat.zero_lt_one)
    have h1 : (acc (fun j q => if p j q then ((s j q : ℝ) : EReal) else ⊥) (0 + 1)).1 = (M : EReal) := by
      rw [acc_succ, upd_fst, acc_zero, hM]; exact max_eq_right bot_le
    refine ⟨M, ?_, ⟨0, Nat.zero_lt_one, q0, hp0, hq0⟩, h1, ?_⟩
    · intro j hj q hq
      obtain rfl : j = 0 := by omega
      exact hle q hq
    · have hu : (upd (fun q => if p 0 q then ((s 0 q : ℝ) : EReal) else ⊥)
          (acc (fun j q => if p j q then ((s j q : ℝ) : EReal) else ⊥) 0)).1 = (M : EReal) := h1
      rw [acc_succ, upd_snd, hu, acc_zero, mul_zero, zero_add, sum_exp_masked, Finset.sum_range_one]
  | succ k ih =>
    obtain ⟨M, hle, ⟨j1, hj1, q1, hp1, hq1⟩, h1, h2⟩ := ih fun j hj => hp j (Nat.lt_succ_of_lt hj)
    obtain ⟨Mk, hlek, ⟨q0, hp0, hq0⟩, hMk⟩ :=
      fold_max_masked (p (k + 1)) (s (k + 1)) (hp (k + 1) (Nat.lt_succ_self _))
    have h1' : (acc (fun j q => if p j q then ((s j q : ℝ) : EReal) else ⊥) (k + 1 + 1)).1
        = ((max M Mk : ℝ) : EReal) := by
      rw [acc_succ, upd_fst, h1, hMk, coe_max]
    refine ⟨max M Mk, ?_, ?_, h1', ?_⟩
    · intro j hj q hq
      rcases Nat.lt_succ_iff_lt_or_eq.mp hj with h | rfl
      · exact le_trans (hle j h q hq) (le_max_left _ _)
      · exact le_trans (hlek q hq) (le_max_right _ _)
    · rcases le_total M Mk with h | h
      · exact ⟨k + 1, Nat.lt_succ_self _, q0, hp0, by rw [hq0, max_eq_right h]⟩
      · exact ⟨j1, Nat.lt_succ_of_lt hj1, q1, hp1, by rw [hq1, max_eq_left h]⟩
    · have hu : (upd (fun q => if p (k + 1) q then ((s (k + 1) q : ℝ) : EReal) else ⊥)
          (acc (fun j q => if p j q then ((s j q : ℝ) : EReal) else ⊥) (k + 1))).1
            = ((max M Mk : ℝ) : EReal) := h1'
      rw [acc_succ, upd_snd, hu, h1, h2, sum_exp_masked, ← EReal.coe_sub, Ideal.exp_coe,
        ← EReal.coe_mul, ← EReal.coe_add, Finset.sum_range_succ _ (k + 1), Finset.mul_sum]
      congr 2
      refine Finset.sum_congr rfl fun j _ => ?_
      rw [Finset.mul_sum]
      refine Finset.sum_congr rfl fun q _ => ?_
      by_cases hq : p j q
      · rw [if_pos hq, if_pos hq, ← Real.exp_add]
        congr 1
        ring
      · rw [if_neg hq, if_neg hq, mul_zero]

/-! ### A ragged row -/

/-- A sum over the first N of n · B columns, the other columns adding zero, taken block by block: column q of
    block j is column j · B + q. -/
theorem sum_ragged_blocks {n B N : ℕ} (hN : N ≤ n * B) (g : Fin N → ℝ) :
    ∑ j ∈ Finset.range n, ∑ q : Fin B, (if h : j * B + q.val < N then g ⟨j * B + q.val, h⟩ else 0)
      = ∑ c : Fin N, g c := by
  let g' : ℕ → ℝ := fun c => if h : c < N then g ⟨c, h⟩ else 0
  have e1 : ∑ j ∈ Finset.range n, ∑ q : Fin B, (if h : j * B + q.val < N then g ⟨j * B + q.val, h⟩ else 0)
      = ∑ c : Fin (n * B), g' c.val := by
    rw [← sum_blocks (fun c : Fin (n * B) => g' c.val), ← Fin.sum_univ_eq_sum_range
      (fun j => ∑ q : Fin B, (if h : j * B + q.val < N then g ⟨j * B + q.val, h⟩ else 0)) n]
  have e2 : ∑ c : Fin (n * B), g' c.val = ∑ c ∈ Finset.range (n * B), g' c :=
    Fin.sum_univ_eq_sum_range g' (n * B)
  have e3 : ∑ c ∈ Finset.range N, g' c = ∑ c ∈ Finset.range (n * B), g' c := by
    refine Finset.sum_subset (Finset.range_mono hN) fun c _ hc => ?_
    have hcN : ¬ c < N := fun h => hc (Finset.mem_range.mpr h)
    show (if h : c < N then g ⟨c, h⟩ else 0) = 0
    rw [dif_neg hcN]
  have e4 : ∑ c : Fin N, g' c.val = ∑ c ∈ Finset.range N, g' c := Fin.sum_univ_eq_sum_range g' N
  rw [e1, e2, ← e3, ← e4]
  refine Finset.sum_congr rfl fun c _ => ?_
  show (if h : c.val < N then g ⟨c.val, h⟩ else 0) = g c
  rw [dif_pos c.isLt]

/-- The online softmax's final state over a ragged row: N real logits x walked in n blocks of B columns
    (column q of block j is column j · B + q, a column past N standing at -∞), every block starting inside the
    row. The running maximum is the row's maximum M — it bounds the row, is attained, and is the value of the
    row's fold from -∞ — and the running sum is Σ_c exp (x c - M) over the N columns. -/
theorem acc_ragged {n B N : ℕ} (hn : 0 < n) (hB : 0 < B) (hlo : ∀ j, j < n → j * B < N) (hhi : N ≤ n * B)
    (x : Fin N → ℝ) :
    ∃ M : ℝ, (∀ c, x c ≤ M) ∧ (∃ c, x c = M) ∧
      Finset.univ.fold max (⊥ : EReal) (fun c => ((x c : ℝ) : EReal)) = (M : EReal) ∧
      (acc (fun j (q : Fin B) =>
        if h : j * B + q.val < N then ((x ⟨j * B + q.val, h⟩ : ℝ) : EReal) else ⊥) n).1 = (M : EReal) ∧
      (acc (fun j (q : Fin B) =>
        if h : j * B + q.val < N then ((x ⟨j * B + q.val, h⟩ : ℝ) : EReal) else ⊥) n).2
          = ((∑ c, Real.exp (x c - M) : ℝ) : EReal) := by
  have hN : 0 < N := lt_of_le_of_lt (Nat.zero_le _) (hlo 0 hn)
  have hrow : (fun j (q : Fin B) =>
        if h : j * B + q.val < N then ((x ⟨j * B + q.val, h⟩ : ℝ) : EReal) else ⊥)
      = fun j (q : Fin B) => if j * B + q.val < N then
          (((if h : j * B + q.val < N then x ⟨j * B + q.val, h⟩ else 0 : ℝ)) : EReal) else ⊥ := by
    funext j q
    by_cases h : j * B + q.val < N
    · rw [dif_pos h, if_pos h, dif_pos h]
    · rw [dif_neg h, if_neg h]
  obtain ⟨M, hMle, ⟨jM, hjM, qM, hpM, hqM⟩, ha1, ha2⟩ :=
    acc_masked (fun j (q : Fin B) => j * B + q.val < N)
      (fun j q => if h : j * B + q.val < N then x ⟨j * B + q.val, h⟩ else 0) n hn
      (fun j hj => ⟨⟨0, hB⟩, by simpa using hlo j hj⟩)
  obtain ⟨M', hM'le, ⟨c0, hc0⟩, hM'⟩ := fold_max_real hN x
  -- the blocks' maximum is the row's maximum
  have hMM : M' = M := by
    apply le_antisymm
    · rw [← hc0]
      have hdiv : c0.val / B < n :=
        Nat.div_lt_of_lt_mul (lt_of_lt_of_le c0.isLt (le_of_le_of_eq hhi (Nat.mul_comm n B)))
      have hc : c0.val / B * B + c0.val % B = c0.val := Nat.div_add_mod' _ _
      have hlt : c0.val / B * B + (⟨c0.val % B, Nat.mod_lt _ hB⟩ : Fin B).val < N := by
        show c0.val / B * B + c0.val % B < N
        rw [hc]; exact c0.isLt
      have hb := hMle (c0.val / B) hdiv ⟨c0.val % B, Nat.mod_lt _ hB⟩ hlt
      rw [dif_pos hlt] at hb
      have hcc : (⟨c0.val / B * B + (⟨c0.val % B, Nat.mod_lt _ hB⟩ : Fin B).val, hlt⟩ : Fin N) = c0 :=
        Fin.ext hc
      rw [hcc] at hb
      exact hb
    · rw [← hqM]
      show (if h : jM * B + qM.val < N then x ⟨jM * B + qM.val, h⟩ else 0) ≤ M'
      rw [dif_pos hpM]
      exact hM'le _
  subst hMM
  refine ⟨M', hM'le, ⟨c0, hc0⟩, hM', ?_, ?_⟩
  · rw [hrow]; exact ha1
  · rw [hrow, ha2, ← sum_ragged_blocks hhi (fun c => Real.exp (x c - M'))]
    congr 1
    refine Finset.sum_congr rfl fun j _ => Finset.sum_congr rfl fun q _ => ?_
    by_cases h : j * B + q.val < N
    · rw [if_pos h, dif_pos h, dif_pos h]
    · rw [if_neg h, dif_neg h]

end OnlineSoftmax

end
-- ==== Proof.Spec.lean ====
/-
  The vocabulary of the certificate: mean cross-entropy of 4096 rows of 50257 real logits.

  For a row x the log-sum-exp is written the way the online softmax ends with it, log l + m, where m is the row's
  maximum (folded from -∞) and l = Σ_j exp (x j - m). The online softmax walks the row in 24 chunks of 2048
  columns and a last chunk of 1105 columns (24 · 2048 + 1105 = 50257), keeping a state (m, l): a chunk with
  maximum m₀ moves (m, l) to (max m m₀, l · exp (m - max m m₀) + Σ_q exp (chunk q - max m m₀)).

  The 4096 rows are walked in 32 blocks of 128 rows; block t contributes Σ_r lse (row 128 t + r), and the two
  halves of the blocks (0..15 and 16..31) are summed separately before they are added.
-/
import proofs.«403744_j34471407518048_4_alg».proof.Proof.LibRaggedSoftmax
import Idealize.ShloMosaic.Lib.ValueIdx

noncomputable section

namespace Cert.XEnt

open Idealize.ShloMosaic Idealize.ShloMosaic.ValueIdx

/-- A row's maximum, folded from -∞. -/
def rmax {n : ℕ} (x : Fin n → EReal) : EReal := Finset.univ.fold max (⊥ : EReal) x

/-- A row's log-sum-exp in the form log l + m, with m the row's maximum and l = Σ_j exp (x j - m). -/
def lse {n : ℕ} (x : Fin n → EReal) : EReal := Ideal.log (∑ j, Ideal.exp (x j - rmax x)) + rmax x

/-- One step of the online softmax in the order the kernel multiplies: the old sum times exp (m - m'). -/
def kstep {B : ℕ} (chunk : Fin B → EReal) (ml : EReal × EReal) : EReal × EReal :=
  (max ml.1 (rmax chunk), ml.2 * Ideal.exp (ml.1 - max ml.1 (rmax chunk)) + ∑ q, Ideal.exp (chunk q - max ml.1 (rmax chunk)))

/-- Column j of a row of N logits, -∞ past the row's end. -/
def col {N : ℕ} (x : Fin N → EReal) (j : ℕ) : EReal := if h : j < N then x ⟨j, h⟩ else ⊥

/-- Chunk k of a row: its columns 2048 k .. 2048 k + 2047. -/
def chunkOf {N : ℕ} (x : Fin N → EReal) (k : ℕ) : Fin 2048 → EReal := fun q => col x (k * 2048 + q.val)

/-- The last, narrower chunk of a row of 50257 logits: its columns 49152 .. 50256. -/
def tailOf {N : ℕ} (x : Fin N → EReal) : Fin 1105 → EReal := fun q => col x (49152 + q.val)

/-- The online softmax's state after the first k chunks of 2048 columns; (-∞, 0) before the first. -/
def kchain {N : ℕ} (x : Fin N → EReal) : ℕ → EReal × EReal
  | 0 => (⊥, 0)
  | k + 1 => kstep (chunkOf x k) (kchain x k)

/-- The state after all 24 chunks of 2048 columns and the last chunk of 1105. -/
def kfinal {N : ℕ} (x : Fin N → EReal) : EReal × EReal := kstep (tailOf x) (kchain x 24)

/-- The array of logits as extended reals, and its row b. -/
abbrev Logits := (⟨2, ![4096, 50257]⟩ : Shape).Idx → EReal
def rowOf (X : Logits) (b : Fin 4096) : Fin 50257 → EReal := fun j => X (ix2 b j)

/-- Row number b of the array, -∞ everywhere past the last row (never read there). -/
def rowN (X : Logits) (b : ℕ) : Fin 50257 → EReal := if h : b < 4096 then rowOf X ⟨b, h⟩ else fun _ => ⊥

/-- What block t of 128 rows adds to the total: the sum of its rows' log-sum-exps. -/
def blockLse (X : Logits) (t : ℕ) : EReal := ∑ r : Fin 128, lse (rowN X (128 * t + r.val))

/-- The sum accumulated by half g of the blocks after its first i + 1 blocks. -/
def halfSum (X : Logits) (g i : ℕ) : EReal := ∑ k ∈ Finset.range (i + 1), blockLse X (16 * g + k)

end Cert.XEnt

end
-- ==== Proof.SpecLaws.lean ====
/-
  Laws of the vocabulary: the online softmax's final state over the 24 + 1 chunks of a real row gives the row's
  log-sum-exp; the log-sum-exp of a real row is real; and the plain log-softmax entry is the logit minus the
  log-sum-exp.
-/
import proofs.«403744_j34471407518048_4_alg».proof.Proof.Spec

noncomputable section

namespace Cert.XEnt

open Idealize.ShloMosaic Idealize.ShloMosaic.ValueIdx

/-- The kernel's step is the online softmax's step: only the order of one product differs. -/
theorem kstep_eq_upd {B : ℕ} (chunk : Fin B → EReal) (ml : EReal × EReal) :
    kstep chunk ml = OnlineSoftmax.upd chunk ml := by
  refine Prod.ext rfl ?_
  show ml.2 * Ideal.exp (ml.1 - max ml.1 (rmax chunk)) + ∑ q, Ideal.exp (chunk q - max ml.1 (rmax chunk))
    = Ideal.exp (ml.1 - max ml.1 (rmax chunk)) * ml.2 + ∑ q, Ideal.exp (chunk q - max ml.1 (rmax chunk))
  rw [mul_comm]

/-! ### Padding with -∞ -/

/-- A family that stands at -∞ from index a on has the same maximum, folded from -∞, over its first a members
    and over its first b ≥ a members: -∞ is neutral for the maximum. -/
theorem fold_max_pad {a b : ℕ} (hab : a ≤ b) (g : ℕ → EReal) (hg : ∀ j, a ≤ j → g j = ⊥) :
    Finset.univ.fold max (⊥ : EReal) (fun q : Fin a => g q.val)
      = Finset.univ.fold max (⊥ : EReal) (fun q : Fin b => g q.val) := by
  apply le_antisymm
  · rw [Finset.fold_max_le]
    refine ⟨bot_le, fun q _ => ?_⟩
    rw [Finset.le_fold_max]
    exact Or.inr ⟨⟨q.val, lt_of_lt_of_le q.isLt hab⟩, Finset.mem_univ _, le_rfl⟩
  · rw [Finset.fold_max_le]
    refine ⟨bot_le, fun q _ => ?_⟩
    by_cases hq : q.val < a
    · rw [Finset.le_fold_max]
      exact Or.inr ⟨⟨q.val, hq⟩, Finset.mem_univ _, le_rfl⟩
    · show g q.val ≤ _
      rw [hg q.val (not_lt.mp hq)]
      exact bot_le

/-- A family that is zero from index a on has the same sum over its first a members and over its first
    b ≥ a members. -/
theorem sum_pad {a b : ℕ} (hab : a ≤ b) (g : ℕ → EReal) (hg : ∀ j, a ≤ j → g j = 0) :
    ∑ q : Fin a, g q.val = ∑ q : Fin b, g q.val := by
  rw [Fin.sum_univ_eq_sum_range g a, Fin.sum_univ_eq_sum_range g b]
  exact Finset.sum_subset (Finset.range_mono hab) fun c _ hc =>
    hg c (not_lt.mp fun h => hc (Finset.mem_range.mpr h))

/-! ### The chunks of a real row are the blocks of the ragged row -/

/-- The state after k chunks of 2048 columns is the online softmax's state after k blocks of the row padded
    with -∞ past its end. -/
theorem kchain_eq_acc (xr : Fin 50257 → ℝ) (k : ℕ) :
    kchain (fun j => ((xr j : ℝ) : EReal)) k
      = OnlineSoftmax.acc (fun j (q : Fin 2048) =>
          if h : j * 2048 + q.val < 50257 then ((xr ⟨j * 2048 + q.val, h⟩ : ℝ) : EReal) else ⊥) k := by
  induction k with
  | zero => rfl
  | succ k ih =>
    show kstep (chunkOf (fun j => ((xr j : ℝ) : EReal)) k) (kchain (fun j => ((xr j : ℝ) : EReal)) k) = _
    rw [kstep_eq_upd, ih, OnlineSoftmax.acc_succ]
    rfl

/-- The last, narrower chunk moves a state exactly as the 25th block of the padded row does: the 943 columns of
    padding stand at -∞, neutral for the maximum, and each adds exp (-∞ - m') = exp (-∞) = 0 to the sum. -/
theorem kstep_tail (xr : Fin 50257 → ℝ) (ml : EReal × EReal) :
    kstep (tailOf (fun j => ((xr j : ℝ) : EReal))) ml
      = OnlineSoftmax.upd (fun q : Fin 2048 =>
          if h : 24 * 2048 + q.val < 50257 then ((xr ⟨24 * 2048 + q.val, h⟩ : ℝ) : EReal) else ⊥) ml := by
  have hbot : ∀ j, 1105 ≤ j → col (fun j => ((xr j : ℝ) : EReal)) (24 * 2048 + j) = ⊥ := by
    intro j hj
    unfold col
    rw [dif_neg (by omega)]
  have hmax : Finset.univ.fold max (⊥ : EReal) (tailOf (fun j => ((xr j : ℝ) : EReal)))
      = Finset.univ.fold max (⊥ : EReal) (fun q : Fin 2048 =>
          if h : 24 * 2048 + q.val < 50257 then ((xr ⟨24 * 2048 + q.val, h⟩ : ℝ) : EReal) else ⊥) :=
    fold_max_pad (a := 1105) (b := 2048) (by norm_num)
      (fun j => col (fun j => ((xr j : ℝ) : EReal)) (24 * 2048 + j)) hbot
  have hsum : ∀ m' : EReal,
      ∑ q : Fin 1105, Ideal.exp (tailOf (fun j => ((xr j : ℝ) : EReal)) q - m')
        = ∑ q : Fin 2048, Ideal.exp ((if h : 24 * 2048 + q.val < 50257 then
            ((xr ⟨24 * 2048 + q.val, h⟩ : ℝ) : EReal) else ⊥) - m') := fun m' =>
    sum_pad (a := 1105) (b := 2048) (by norm_num)
      (fun j => Ideal.exp (col (fun j => ((xr j : ℝ) : EReal)) (24 * 2048 + j) - m'))
      (fun j hj => by
        show Ideal.exp (col (fun j => ((xr j : ℝ) : EReal)) (24 * 2048 + j) - m') = 0
        rw [hbot j hj, EReal.bot_sub, Ideal.exp_bot])
  rw [kstep_eq_upd]
  refine Prod.ext ?_ ?_
  · rw [OnlineSoftmax.upd_fst, OnlineSoftmax.upd_fst, hmax]
  · rw [OnlineSoftmax.upd_snd, OnlineSoftmax.upd_snd, OnlineSoftmax.upd_fst, OnlineSoftmax.upd_fst, hmax, hsum]

/-- The final state over a row of real logits: the running maximum is the row's maximum M, a real number and the
    value of the row's fold from -∞, and the running sum is Σ_c exp (x c - M) over all 50257 columns. -/
theorem kfinal_state (xr : Fin 50257 → ℝ) :
    ∃ M : ℝ, rmax (fun j => ((xr j : ℝ) : EReal)) = (M : EReal) ∧
      (kfinal (fun j => ((xr j : ℝ) : EReal))).1 = (M : EReal) ∧
      (kfinal (fun j => ((xr j : ℝ) : EReal))).2 = ((∑ c, Real.exp (xr c - M) : ℝ) : EReal) := by
  obtain ⟨M, -, -, hM, h1, h2⟩ := OnlineSoftmax.acc_ragged (n := 25) (B := 2048) (N := 50257)
    (by norm_num) (by norm_num) (fun j hj => by omega) (by norm_num) xr
  have hk : kfinal (fun j => ((xr j : ℝ) : EReal))
      = OnlineSoftmax.acc (fun j (q : Fin 2048) =>
          if h : j * 2048 + q.val < 50257 then ((xr ⟨j * 2048 + q.val, h⟩ : ℝ) : EReal) else ⊥) 25 := by
    show kstep (tailOf (fun j => ((xr j : ℝ) : EReal))) (kchain (fun j => ((xr j : ℝ) : EReal)) 24) = _
    rw [kstep_tail, kchain_eq_acc]
    rfl
  exact ⟨M, hM, by rw [hk]; exact h1, by rw [hk]; exact h2⟩

/-- The log-sum-exp of a row of real logits with maximum M: log (Σ_c exp (x c - M)) + M, a real number. -/
theorem lse_eq (xr : Fin 50257 → ℝ) (M : ℝ) (hM : rmax (fun j => ((xr j : ℝ) : EReal)) = (M : EReal)) :
    lse (fun j => ((xr j : ℝ) : EReal))
      = ((Real.log (∑ c, Real.exp (xr c - M)) + M : ℝ) : EReal) := by
  have hSpos : 0 < ∑ c, Real.exp (xr c - M) :=
    Finset.sum_pos (fun _ _ => Real.exp_pos _) ⟨⟨0, by norm_num⟩, Finset.mem_univ _⟩
  unfold lse
  rw [hM, OnlineSoftmax.sum_exp_coe, Ideal.log_coe, if_neg (not_le.mpr hSpos), ← EReal.coe_add]

/-- Over a row of real logits the online softmax's final state (m, l) has log l + m the row's log-sum-exp. -/
theorem kfinal_lse (xr : Fin 50257 → ℝ) :
    Ideal.log (kfinal (fun j => ((xr j : ℝ) : EReal))).2 + (kfinal (fun j => ((xr j : ℝ) : EReal))).1
      = lse (fun j => ((xr j : ℝ) : EReal)) := by
  obtain ⟨M, hM, h1, h2⟩ := kfinal_state xr
  have hSpos : 0 < ∑ c, Real.exp (xr c - M) :=
    Finset.sum_pos (fun _ _ => Real.exp_pos _) ⟨⟨0, by norm_num⟩, Finset.mem_univ _⟩
  rw [lse_eq xr M hM, h1, h2, Ideal.log_coe, if_neg (not_le.mpr hSpos), ← EReal.coe_add]

/-- The log-sum-exp of a row of real logits is a real number. -/
theorem lse_real (xr : Fin 50257 → ℝ) : ∃ L : ℝ, lse (fun j => ((xr j : ℝ) : EReal)) = (L : EReal) := by
  obtain ⟨M, hM, -, -⟩ := kfinal_state xr
  exact ⟨_, lse_eq xr M hM⟩

/-- The plain log-softmax of a real row at column j — the logit shifted by the row's maximum (itself maxed with
    -∞ once more), minus the log of 0 plus the sum of the shifted exponentials — is the logit minus the
    log-sum-exp. -/
theorem logsoftmax_entry (xr : Fin 50257 → ℝ) (j : Fin 50257) :
    (((xr j : ℝ) : EReal) - max ⊥ (rmax (fun k => ((xr k : ℝ) : EReal))))
        - Ideal.log (0 + ∑ k, Ideal.exp (((xr k : ℝ) : EReal) - max ⊥ (rmax (fun k' => ((xr k' : ℝ) : EReal)))))
      = ((xr j : ℝ) : EReal) - lse (fun k => ((xr k : ℝ) : EReal)) := by
  obtain ⟨M, hM, -, -⟩ := kfinal_state xr
  have hSpos : 0 < ∑ c, Real.exp (xr c - M) :=
    Finset.sum_pos (fun _ _ => Real.exp_pos _) ⟨⟨0, by norm_num⟩, Finset.mem_univ _⟩
  have hr : xr j - M - Real.log (∑ c, Real.exp (xr c - M))
      = xr j - (Real.log (∑ c, Real.exp (xr c - M)) + M) := by ring
  rw [lse_eq xr M hM, hM, max_eq_right bot_le, zero_add, OnlineSoftmax.sum_exp_coe, Ideal.log_coe,
    if_neg (not_le.mpr hSpos), ← EReal.coe_sub, ← EReal.coe_sub, ← EReal.coe_sub, hr]

end Cert.XEnt

end
-- ==== Proof.LibRowOps.lean ====
/-
  Row-wise operations of an [n, m] array read at an index, over the extended reals.

  A kernel that reduces each row of a block with keepdims, and the host that reduces each row of the whole array,
  meet the same handful of operations: a sum or a maximum along axis 1 read at row r; a vector [n] recast as a
  column [n, 1]; a column [n, 1] broadcast along the rows of [n, m]; two columns laid side by side as [n, 2]; and,
  on the host, a column of [n, 2] cut out and recast as a vector [n]. Each is stated here once, at any extents, with
  indices written by their coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The index of row r with column k put back -/

/-- Over row index r, the source index whose coordinate on the dropped axis 1 is k is (r, k). -/
theorem lift_row {n m : ℕ} (h : (⟨2, ![n, m]⟩ : Shape).Reduces [1] ⟨1, ![n]⟩) (r : Fin n)
    (k : Fin ((⟨2, ![n, m]⟩ : Shape).size 1)) : h.lift (ix1 r) k = ix2 r (⟨k.val, k.isLt⟩ : Fin m) := by
  funext c; apply Fin.ext
  fin_cases c <;> rfl

/-! ## A kernel's lane reductions along axis 1 -/

/-- A float sum along axis 1, at row r, is the sum of the row's entries. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  refine (Ideal.multiReduction_add_single src acc h hφ hacc (ix1 r)).trans ?_
  exact Finset.sum_congr rfl fun k _ => congrArg src (lift_row h r k)

/-- A float maximum along axis 1, at row r, is the fold of max over the row's entries from the accumulator's value. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin m)).fold max (Ideal.ofBits φ acc) (fun k => src (ix2 r k)) := by
  refine (Ideal.multiReduction_maximumf_single src acc h hφ hacc (ix1 r)).trans ?_
  have hf : (src ∘ h.lift (ix1 r)) = fun k : Fin m => src (ix2 r k) := funext fun k => congrArg src (lift_row h r k)
  exact congrArg (fun f => Finset.fold max (Ideal.ofBits φ acc) f (Finset.univ : Finset (Fin m))) hf

/-! ## The host's reductions along axis 1 -/

/-- The host's maximum along axis 1, at row r, is the fold of max over the row's entries from the initial value. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩) (hu : 0 < u.numel) (r : Fin n) :
    Host.reduce FloatOps.maximumf x init h' hu (ix1 r)
      = (Finset.univ : Finset (Fin m)).fold max (init (Shape.Idx.first hu)) (fun k => x (ix2 r k)) := by
  refine (Host.reduce_eq_fold_single FloatOps.maximumf x init h' h hu (ix1 r)).trans ?_
  have hf : (x ∘ h.lift (ix1 r)) = fun k : Fin m => x (ix2 r k) := funext fun k => congrArg x (lift_row h r k)
  exact congrArg (fun f => Finset.fold max (init (Shape.Idx.first hu)) f (Finset.univ : Finset (Fin m))) hf

/-! ## Columns -/

/-- A vector [n] recast as a column [n, 1] reads, at (r, u), entry r. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [n, 1] recast as a vector [n] reads, at r, the column at (r, 0). -/
theorem shapeCast_a1_a_apply {n : ℕ} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column [n, 1] broadcast along the rows of [n, m] (m at least 2, n at least 2) reads, at (r, k), the column at (r, 0). -/
theorem broadcastTo_a1_ab_apply {n m : ℕ} (hn : n ≠ 1) (v : (⟨2, ![n, 1]⟩ : Shape).Idx → α)
    (h : (⟨2, ![n, 1]⟩ : Shape).Broadcasts ⟨2, ![n, m]⟩) (r : Fin n) (k : Fin m) :
    broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    rw [if_neg hn]
  | ⟨1, _⟩ => rfl

/-- Two columns [n, 1] laid side by side as [n, 2] read, at (r, 0), the first column at (r, 0). -/
theorem concat_cols_left {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) (fun b => by
    match b with
    | ⟨0, _⟩ => rfl
    | ⟨1, _⟩ => rfl)

/-- … and, at (r, 1), the second column at (r, 0). -/
theorem concat_cols_right {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1)) (fun b hb => by
    match b with
    | ⟨0, _⟩ => rfl
    | ⟨1, _⟩ => exact absurd rfl hb) rfl

/-- Column c of an [n, 2] array, cut out as [n, 1], reads at (r, 0) the array at (r, c). -/
theorem slice_col_apply {n : ℕ} (c : Fin 2) (X : (⟨2, ![n, 2]⟩ : Shape).Idx → α)
    (h : (⟨2, ![n, 2]⟩ : Shape).Slices ![0, c.val] ⟨2, ![n, 1]⟩) (r : Fin n) :
    extractStridedSlice ⟨2, ![n, 1]⟩ ![0, c.val] X h (ix2 r (0 : Fin 1)) = X (ix2 r c) :=
  slice2_axis1_apply c.val X h r (0 : Fin 1) c rfl

end Cert.RowOps

end
-- ==== Proof.BodyLse.lean ====
/-
  What the kernel body adds at one grid point: the sum, over the 128 rows of the point's block, of the rows'
  log-sum-exps — when every logit of the block is a real number.

  Along a row the body's 24 + 1 chunk steps are the online softmax's steps, so the final running maximum and running
  sum of a row are the row's maximum and its sum of shifted exponentials, and log (sum) + maximum is the row's
  log-sum-exp; the closing reduction over the 128 rows adds them up.
-/
import proofs.«403744_j34471407518048_4_alg».proof.Proof.BodyTerm
import proofs.«403744_j34471407518048_4_alg».proof.Proof.SpecLaws
import proofs.«403744_j34471407518048_4_alg».proof.Proof.LibRowOps

noncomputable section

namespace Cert.KernelIdeal.Body

open Cert.KernelIdeal Cert.KernelIdeal.Gen Idealize.ShloMosaic Idealize.ShloMosaic.ValueIdx

/-! ## One chunk step on whole columns, at any float instance -/

section Steps

variable {F : FTy → Type} [FloatOps F]

/-- The running maxima after a chunk of 2048 columns: the old maxima against the chunk's row maxima. -/
def stepM (m : FVec F S128x1 .f32) (v : FVec F S128x2048 .f32) : FVec F S128x1 .f32 :=
  maximumf m (shapeCast S128x1 (multiReduction .maximumf [1] S128 v 0xFF800000#32 Gen.reduces_S128x2048_S128 (.inl rfl) rfl)
    Gen.shapeCasts_S128_S128x1)

/-- The running sums after a chunk of 2048 columns: the old sums rescaled to the new maxima, plus the chunk's row sums
    of exponentials shifted by the new maxima. -/
def stepL (m l : FVec F S128x1 .f32) (v : FVec F S128x2048 .f32) : FVec F S128x1 .f32 :=
  addf (mulf l (exp (subf m (stepM m v))))
    (shapeCast S128x1 (multiReduction .add [1] S128
      (exp (subf v (broadcastTo S128x2048 (stepM m v) Gen.broadcasts_S128x1_S128x2048))) 0x00000000#32
      Gen.reduces_S128x2048_S128 (.inl rfl) rfl) Gen.shapeCasts_S128_S128x1)

/-- The running maxima after the last chunk of 1105 columns. -/
def stepMT (m : FVec F S128x1 .f32) (v : FVec F S128x1105 .f32) : FVec F S128x1 .f32 :=
  maximumf m (shapeCast S128x1 (multiReduction .maximumf [1] S128 v 0xFF800000#32 Gen.reduces_S128x1105_S128 (.inl rfl) rfl)
    Gen.shapeCasts_S128_S128x1)

/-- The running sums after the last chunk of 1105 columns. -/
def stepLT (m l : FVec F S128x1 .f32) (v : FVec F S128x1105 .f32) : FVec F S128x1 .f32 :=
  addf (mulf l (exp (subf m (stepMT m v))))
    (shapeCast S128x1 (multiReduction .add [1] S128
      (exp (subf v (broadcastTo S128x1105 (stepMT m v) Gen.broadcasts_S128x1_S128x1105))) 0x00000000#32
      Gen.reduces_S128x1105_S128 (.inl rfl) rfl) Gen.shapeCasts_S128_S128x1)

/-- The pair (maxima, sums) after a chunk. -/
def step (ml : FVec F S128x1 .f32 × FVec F S128x1 .f32) (v : FVec F S128x2048 .f32) :
    FVec F S128x1 .f32 × FVec F S128x1 .f32 := (stepM ml.1 v, stepL ml.1 ml.2 v)

/-- The pair (maxima, sums) after the last chunk. -/
def stepT (ml : FVec F S128x1 .f32 × FVec F S128x1 .f32) (v : FVec F S128x1105 .f32) :
    FVec F S128x1 .f32 × FVec F S128x1 .f32 := (stepMT ml.1 v, stepLT ml.1 ml.2 v)

/-- The pair before the first chunk: maxima -∞, sums 0. -/
def st0 : FVec F S128x1 .f32 × FVec F S128x1 .f32 :=
  (broadcast S128x1 (Scalar.ofBits .f32 0xFF800000#32), broadcast S128x1 (Scalar.ofBits .f32 0x00000000#32))

/-- The closing: log (sum) + maximum per row, added over the 128 rows into one number. -/
def finish (ml : FVec F S128x1 .f32 × FVec F S128x1 .f32) : FVec F S1x1x1 .f32 :=
  shapeCast S1x1x1 (multiReduction .add [1, 2] S1
    (shapeCast S1x128x1 (addf (log ml.2) ml.1) Gen.shapeCasts_S128x1_S1x128x1) 0x00000000#32
    Gen.reduces_S1x128x1_S1 (.inl rfl) rfl) Gen.shapeCasts_S1_S1x1x1

end Steps

/-! ## The body as 24 + 1 steps and the closing -/

section Chain

variable {F : FTy → Type} [FloatOps F]

/-- The pair after all 25 chunks: 24 steps over the chunks at column offsets 0, 2048, .., 47104, from (-∞, 0), and the
    step over the last chunk. -/
def stAll (x0 : Vec F S128x50257 .f32) : FVec F S128x1 .f32 × FVec F S128x1 .f32 :=
  stepT
    (step (step (step (step (step (step (step (step (step (step (step (step
    (step (step (step (step (step (step (step (step (step (step (step (step st0
      (ck x0 0 (by decide))) (ck x0 2048 (by decide))) (ck x0 4096 (by decide))) (ck x0 6144 (by decide)))
      (ck x0 8192 (by decide))) (ck x0 10240 (by decide))) (ck x0 12288 (by decide))) (ck x0 14336 (by decide)))
      (ck x0 16384 (by decide))) (ck x0 18432 (by decide))) (ck x0 20480 (by decide))) (ck x0 22528 (by decide)))
      (ck x0 24576 (by decide))) (ck x0 26624 (by decide))) (ck x0 28672 (by decide))) (ck x0 30720 (by decide)))
      (ck x0 32768 (by decide))) (ck x0 34816 (by decide))) (ck x0 36864 (by decide))) (ck x0 38912 (by decide)))
      (ck x0 40960 (by decide))) (ck x0 43008 (by decide))) (ck x0 45056 (by decide))) (ck x0 47104 (by decide)))
    (ckTail x0)

end Chain

section BodyIsChain

variable {F : FTy → Type} [FloatOps F]

set_option maxRecDepth 65536 in
/-- The body's nine stretches, strung together, are the 25 steps from (-∞, 0) and the closing: the stretches' values
    are these steps' values cut at other places. -/
theorem bodyOut_eq (x0 : Vec F S128x50257 .f32) : bodyOut x0 = finish (stAll x0) := rfl

end BodyIsChain

/-! ## One step read along a row, at the ideal instance -/

section Rows

/-- The pattern 0xFF800000 is -∞. -/
theorem ofBits_neg_inf : Ideal.ofBits .f32 0xFF800000#32 = (⊥ : EReal) := by
  simp [Ideal.ofBits, Ideal.ieee]

/-- Row r of a pair of columns: its running maximum and its running sum. -/
def rowSt (ml : FVec Ideal S128x1 .f32 × FVec Ideal S128x1 .f32) (r : Fin 128) : EReal × EReal :=
  (ml.1 (ix2 r (0 : Fin 1)), ml.2 (ix2 r (0 : Fin 1)))

theorem stepM_row (m : FVec Ideal S128x1 .f32) (v : FVec Ideal S128x2048 .f32) (r : Fin 128) :
    stepM m v (ix2 r (0 : Fin 1)) = max (m (ix2 r (0 : Fin 1))) (Cert.XEnt.rmax fun q : Fin 2048 => v (ix2 r q)) := by
  unfold stepM
  rw [maximumf_apply, Cert.RowOps.shapeCast_a_a1_apply]
  refine congrArg (max _) ?_
  refine (Cert.RowOps.rowMax_apply v _ _ _ _ r).trans ?_
  rw [ofBits_neg_inf]
  rfl

theorem stepL_row (m l : FVec Ideal S128x1 .f32) (v : FVec Ideal S128x2048 .f32) (r : Fin 128) :
    stepL m l v (ix2 r (0 : Fin 1))
      = l (ix2 r (0 : Fin 1)) * Ideal.exp (m (ix2 r (0 : Fin 1)) - stepM m v (ix2 r (0 : Fin 1)))
        + ∑ q : Fin 2048, Ideal.exp (v (ix2 r q) - stepM m v (ix2 r (0 : Fin 1))) := by
  unfold stepL
  rw [addf_apply, mulf_apply, Cert.RowOps.shapeCast_a_a1_apply]
  refine congrArg₂ (· + ·) rfl ?_
  refine (Cert.RowOps.rowSum_apply _ _ _ _ _ r).trans ?_
  refine Finset.sum_congr rfl fun q _ => ?_
  show Ideal.exp (v (ix2 r q) - broadcastTo S128x2048 (stepM m v) Gen.broadcasts_S128x1_S128x2048 (ix2 r q)) = _
  rw [Cert.RowOps.broadcastTo_a1_ab_apply (by decide)]

theorem rowSt_step (ml : FVec Ideal S128x1 .f32 × FVec Ideal S128x1 .f32) (v : FVec Ideal S128x2048 .f32) (r : Fin 128) :
    rowSt (step ml v) r = Cert.XEnt.kstep (fun q : Fin 2048 => v (ix2 r q)) (rowSt ml r) := by
  unfold rowSt step Cert.XEnt.kstep
  refine Prod.ext ?_ ?_
  · exact stepM_row _ _ _
  · show stepL ml.1 ml.2 v (ix2 r (0 : Fin 1)) = _
    rw [stepL_row, stepM_row]

end Rows

section RowsTail

theorem stepMT_row (m : FVec Ideal S128x1 .f32) (v : FVec Ideal S128x1105 .f32) (r : Fin 128) :
    stepMT m v (ix2 r (0 : Fin 1)) = max (m (ix2 r (0 : Fin 1))) (Cert.XEnt.rmax fun q : Fin 1105 => v (ix2 r q)) := by
  unfold stepMT
  rw [maximumf_apply, Cert.RowOps.shapeCast_a_a1_apply]
  refine congrArg (max _) ?_
  refine (Cert.RowOps.rowMax_apply v _ _ _ _ r).trans ?_
  rw [ofBits_neg_inf]
  rfl

theorem stepLT_row (m l : FVec Ideal S128x1 .f32) (v : FVec Ideal S128x1105 .f32) (r : Fin 128) :
    stepLT m l v (ix2 r (0 : Fin 1))
      = l (ix2 r (0 : Fin 1)) * Ideal.exp (m (ix2 r (0 : Fin 1)) - stepMT m v (ix2 r (0 : Fin 1)))
        + ∑ q : Fin 1105, Ideal.exp (v (ix2 r q) - stepMT m v (ix2 r (0 : Fin 1))) := by
  unfold stepLT
  rw [addf_apply, mulf_apply, Cert.RowOps.shapeCast_a_a1_apply]
  refine congrArg₂ (· + ·) rfl ?_
  refine (Cert.RowOps.rowSum_apply _ _ _ _ _ r).trans ?_
  refine Finset.sum_congr rfl fun q _ => ?_
  show Ideal.exp (v (ix2 r q) - broadcastTo S128x1105 (stepMT m v) Gen.broadcasts_S128x1_S128x1105 (ix2 r q)) = _
  rw [Cert.RowOps.broadcastTo_a1_ab_apply (by decide)]

theorem rowSt_stepT (ml : FVec Ideal S128x1 .f32 × FVec Ideal S128x1 .f32) (v : FVec Ideal S128x1105 .f32) (r : Fin 128) :
    rowSt (stepT ml v) r = Cert.XEnt.kstep (fun q : Fin 1105 => v (ix2 r q)) (rowSt ml r) := by
  unfold rowSt stepT Cert.XEnt.kstep
  refine Prod.ext ?_ ?_
  · exact stepMT_row _ _ _
  · show stepLT ml.1 ml.2 v (ix2 r (0 : Fin 1)) = _
    rw [stepLT_row, stepMT_row]

/-- Before the first chunk a row's pair is (-∞, 0). -/
theorem rowSt_st0 (r : Fin 128) : rowSt (st0 (F := Ideal)) r = ((⊥ : EReal), (0 : EReal)) := by
  unfold rowSt st0
  refine Prod.ext ?_ ?_
  · exact ofBits_neg_inf
  · exact Ideal.ofBits_zero_f32

end RowsTail

/-! ## A chunk's row is the row's chunk -/

section Chunks

/-- Entry (r, q) of the chunk at column offset off is the block's entry (r, off + q). -/
theorem ck_apply (x0 : Vec Ideal S128x50257 .f32) (off : ℕ)
    (h : ∀ a, (![0, off] : Fin 2 → ℕ) a + S128x2048.size a ≤ S128x50257.size a) (r : Fin 128) (q : Fin 2048)
    (hq : off + q.val < 50257) :
    ck x0 off h (ix2 r q) = x0 (ix2 r (⟨off + q.val, hq⟩ : Fin 50257)) := by
  refine congrArg x0 (funext fun a => Fin.ext ?_)
  match a with
  | ⟨0, _⟩ =>
    show 0 + 1 * r.val = r.val
    omega
  | ⟨1, _⟩ =>
    show off + 1 * q.val = off + q.val
    omega

/-- Row r of the chunk at offset 2048 k is chunk k of row r. -/
theorem ck_chunk (x0 : Vec Ideal S128x50257 .f32) (off k : ℕ) (hoff : off = k * 2048) (hk : k < 24)
    (h : ∀ a, (![0, off] : Fin 2 → ℕ) a + S128x2048.size a ≤ S128x50257.size a) (r : Fin 128) :
    (fun q : Fin 2048 => ck x0 off h (ix2 r q)) = Cert.XEnt.chunkOf (fun j : Fin 50257 => x0 (ix2 r j)) k := by
  funext q
  have hq : off + q.val < 50257 := by have := q.isLt; omega
  rw [ck_apply x0 off h r q hq]
  unfold Cert.XEnt.chunkOf Cert.XEnt.col
  have hq' : k * 2048 + q.val < 50257 := by omega
  rw [dif_pos hq']
  exact congrArg x0 (congrArg (ix2 r) (Fin.ext (by show off + q.val = k * 2048 + q.val; omega)))

/-- Row r of the last chunk is the tail of row r. -/
theorem ckTail_chunk (x0 : Vec Ideal S128x50257 .f32) (r : Fin 128) :
    (fun q : Fin 1105 => ckTail x0 (ix2 r q)) = Cert.XEnt.tailOf (fun j : Fin 50257 => x0 (ix2 r j)) := by
  funext q
  have hq : 49152 + q.val < 50257 := by have := q.isLt; omega
  unfold Cert.XEnt.tailOf Cert.XEnt.col
  rw [dif_pos hq]
  refine congrArg x0 (funext fun a => Fin.ext ?_)
  match a with
  | ⟨0, _⟩ =>
    show 0 + 1 * r.val = r.val
    omega
  | ⟨1, _⟩ =>
    show 49152 + 1 * q.val = 49152 + q.val
    omega

end Chunks

/-! ## The 25 steps along a row are the online softmax of the row -/

section Assemble

/-- Row r of the pair after all 25 chunks is the online softmax's final state on row r. -/
theorem rowSt_stAll (x0 : Vec Ideal S128x50257 .f32) (r : Fin 128) :
    rowSt (stAll x0) r = Cert.XEnt.kfinal (fun j : Fin 50257 => x0 (ix2 r j)) := by
  unfold stAll
  rw [rowSt_stepT, ckTail_chunk x0 r]
  rw [rowSt_step, ck_chunk x0 47104 23 rfl (by decide) _ r]
  rw [rowSt_step, ck_chunk x0 45056 22 rfl (by decide) _ r]
  rw [rowSt_step, ck_chunk x0 43008 21 rfl (by decide) _ r]
  rw [rowSt_step, ck_chunk x0 40960 20 rfl (by decide) _ r]
  rw [rowSt_step, ck_chunk x0 38912 19 rfl (by decide) _ r]
  rw [rowSt_step, ck_chunk x0 36864 18 rfl (by decide) _ r]
  rw [rowSt_step, ck_chunk x0 34816 17 rfl (by decide) _ r]
  rw [rowSt_step, ck_chunk x0 32768 16 rfl (by decide) _ r]
  rw [rowSt_step, ck_chunk x0 30720 15 rfl (by decide) _ r]
  rw [rowSt_step, ck_chunk x0 28672 14 rfl (by decide) _ r]
  rw [rowSt_step, ck_chunk x0 26624 13 rfl (by decide) _ r]
  rw [rowSt_step, ck_chunk x0 24576 12 rfl (by decide) _ r]
  rw [rowSt_step, ck_chunk x0 22528 11 rfl (by decide) _ r]
  rw [rowSt_step, ck_chunk x0 20480 10 rfl (by decide) _ r]
  rw [rowSt_step, ck_chunk x0 18432 9 rfl (by decide) _ r]
  rw [rowSt_step, ck_chunk x0 16384 8 rfl (by decide) _ r]
  rw [rowSt_step, ck_chunk x0 14336 7 rfl (by decide) _ r]
  rw [rowSt_step, ck_chunk x0 12288 6 rfl (by decide) _ r]
  rw [rowSt_step, ck_chunk x0 10240 5 rfl (by decide) _ r]
  rw [rowSt_step, ck_chunk x0 8192 4 rfl (by decide) _ r]
  rw [rowSt_step, ck_chunk x0 6144 3 rfl (by decide) _ r]
  rw [rowSt_step, ck_chunk x0 4096 2 rfl (by decide) _ r]
  rw [rowSt_step, ck_chunk x0 2048 1 rfl (by decide) _ r]
  rw [rowSt_step, ck_chunk x0 0 0 rfl (by decide) _ r]
  rw [rowSt_st0]
  rfl

end Assemble

/-! ## The closing reduction adds the rows -/

section Finish

/-- The rows of a [1, 128, 1] array. -/
def rowEquiv : Fin 128 ≃ S1x128x1.Idx where
  toFun r := ix3 (0 : Fin 1) r (0 : Fin 1)
  invFun i := i 1
  left_inv _ := rfl
  right_inv i := by
    funext a
    match a with
    | ⟨0, _⟩ => exact Fin.ext (by have h0 : (i 0).val < 1 := (i 0).isLt; show 0 = (i 0).val; omega)
    | ⟨1, _⟩ => rfl
    | ⟨2, _⟩ => exact Fin.ext (by have h2 : (i 2).val < 1 := (i 2).isLt; show 0 = (i 2).val; omega)

/-- The closing read at its one index: the sum over the rows of log (sum) + maximum. -/
theorem finish_apply (ml : FVec Ideal S128x1 .f32 × FVec Ideal S128x1 .f32) :
    finish ml (ix3 (0 : Fin 1) (0 : Fin 1) (0 : Fin 1))
      = ∑ r : Fin 128, (Ideal.log (ml.2 (ix2 r (0 : Fin 1))) + ml.1 (ix2 r (0 : Fin 1))) := by
  unfold finish
  rw [shapeCast_apply _ Gen.shapeCasts_S1_S1x1x1 (ix3 (0 : Fin 1) (0 : Fin 1) (0 : Fin 1)) (ix1 (0 : Fin 1))
    (by rw [Shape.rowMajor_val_one, Shape.rowMajor_val_three]; rfl)]
  refine (Ideal.multiReduction_add_total _ _ Gen.reduces_S1x128x1_S1 (by decide) _ _ _).trans ?_
  rw [← Equiv.sum_comp rowEquiv]
  refine Finset.sum_congr rfl fun r _ => ?_
  show shapeCast S1x128x1 (addf (log ml.2) ml.1) Gen.shapeCasts_S128x1_S1x128x1 (ix3 (0 : Fin 1) r (0 : Fin 1)) = _
  rw [shapeCast_apply _ Gen.shapeCasts_S128x1_S1x128x1 (ix3 (0 : Fin 1) r (0 : Fin 1)) (ix2 r (0 : Fin 1))
    (by rw [Shape.rowMajor_val_two, Shape.rowMajor_val_three]
        show r.val * 1 + 0 = ((0 * 128 + r.val) * 1 + 0)
        omega)]
  rfl

end Finish

/-- At the ideal instance, over a block of real logits, the body's contribution is the sum of the 128 rows'
    log-sum-exps. -/
theorem bodyOut_lse (x0 : Vec Ideal S128x50257 .f32) (hx : ∀ i, ∃ r : ℝ, x0 i = (r : EReal)) :
    bodyOut (F := Ideal) x0 (ix3 (0 : Fin 1) (0 : Fin 1) (0 : Fin 1))
      = ∑ r : Fin 128, Cert.XEnt.lse (fun j : Fin 50257 => x0 (ix2 r j)) := by
  rw [bodyOut_eq x0, finish_apply]
  choose xr hxr using hx
  refine Finset.sum_congr rfl fun r _ => ?_
  have hrow : (fun j : Fin 50257 => x0 (ix2 r j)) = fun j : Fin 50257 => ((xr (ix2 r j) : ℝ) : EReal) :=
    funext fun j => hxr _
  show Ideal.log (rowSt (stAll x0) r).2 + (rowSt (stAll x0) r).1 = _
  rw [rowSt_stAll x0 r, hrow]
  exact Cert.XEnt.kfinal_lse fun j : Fin 50257 => xr (ix2 r j)

end Cert.KernelIdeal.Body

end
-- ==== Proof.BlockRows.lean ====
/-
  The grid's blocks are consecutive groups of 128 rows: row r of the block at point t is row 128 t + r of the logits.
  With every logit real, a point's contribution is therefore the sum of its 128 rows' log-sum-exps, and the last
  partial sum of a half is the sum over that half's 16 blocks.
-/
import proofs.«403744_j34471407518048_4_alg».proof.Proof.Accum
import proofs.«403744_j34471407518048_4_alg».proof.Proof.BodyLse

set_option maxRecDepth 65536

noncomputable section

namespace Cert.KernelIdeal.Body

open Cert.KernelIdeal Cert.KernelIdeal.Gen Idealize.ShloMosaic Idealize.ShloMosaic.TcCoe
open Idealize.ShloMosaic.ValueIdx Idealize.SL Idealize.SL.Sem Cert.XEnt

variable (m : (ℓ : Loc nD τ sig) → Buf (Elt Ideal) ℓ)

/-- The input window's block index at point t: block t along the rows, block 0 along the columns. -/
theorem idx_facts : ∀ t : Fin cfg0.N, win0_0.index t 0 = t.val ∧ win0_0.index t 1 = 0 :=
  (by decide +kernel : ∀ t : Fin grid0.N, win0_0.index t 0 = t.val ∧ win0_0.index t 1 = 0)

/-- The logits as the kernel program is launched with them. -/
abbrev logits (c : Dev nD) : Logits := m ((c.tc : Thread nD τ).loc main_arg0)

/-- Row r of the block at point t is row 128 t + r of the logits. -/
theorem iblk_row (c : Dev nD) (t : Fin cfg0.N) (r : Fin 128) (j : Fin 50257) (hb : 128 * t.val + r.val < 4096) :
    (iblk m c 0 t : Vec Ideal S128x50257 .f32) (ix2 r j) = logits m c (ix2 ⟨128 * t.val + r.val, hb⟩ j) := by
  have hi := idx_facts t
  unfold iblk
  rw [View.read_apply]
  show V m c main_arg0 _ = m ((c.tc : Thread nD τ).loc main_arg0) _
  rw [V_main_arg0]
  congr 1
  funext a
  apply Fin.ext
  match a with
  | ⟨0, _⟩ => show win0_0.index t 0 * 128 + 1 * r.val = 128 * t.val + r.val; rw [hi.1]; omega
  | ⟨1, _⟩ => show win0_0.index t 1 * 50257 + 1 * j.val = j.val; rw [hi.2]; omega

/-- With every logit real, every entry of a block is real. -/
theorem iblk_real (c : Dev nD) (hX : ∀ i, ∃ r : ℝ, logits m c i = (r : EReal)) (t : Fin cfg0.N) :
    ∀ i : S128x50257.Idx, ∃ r : ℝ, (iblk m c 0 t : Vec Ideal S128x50257 .f32) i = (r : EReal) := by
  intro i
  obtain ⟨p, q, rfl⟩ : ∃ (p : Fin 128) (q : Fin 50257), i = ix2 p q := ⟨i 0, i 1, eq_ix2 i⟩
  have hN : cfg0.N = 32 := N_0
  have ht : t.val < 32 := hN ▸ t.isLt
  have h0 : p.val < 128 := p.isLt
  have hb : 128 * t.val + p.val < 4096 := by omega
  rw [iblk_row m c t p q hb]
  exact hX _

/-- With every logit real, point t's contribution is the sum of its block's 128 rows' log-sum-exps. -/
theorem contrib_eq (c : Dev nD) (hX : ∀ i, ∃ r : ℝ, logits m c i = (r : EReal)) (t : ℕ) (h : t < cfg0.N) :
    contrib m c t = blockLse (logits m c) t := by
  have hN : cfg0.N = 32 := N_0
  have ht : t < 32 := hN ▸ h
  rw [contrib_lt m c t h, bodyOut_lse (iblk m c 0 ⟨t, h⟩) (iblk_real m c hX ⟨t, h⟩)]
  unfold blockLse
  refine Finset.sum_congr rfl fun r _ => ?_
  have hr : r.val < 128 := r.isLt
  have hb : 128 * t + r.val < 4096 := by omega
  congr 1
  unfold rowN
  rw [dif_pos hb]
  funext j
  exact iblk_row m c ⟨t, h⟩ r j hb

/-- The last partial sum of half g is the sum over the half's 16 blocks. -/
theorem partialSum_half (c : Dev nD) (hX : ∀ i, ∃ r : ℝ, logits m c i = (r : EReal)) (g : ℕ) (hg : g < 2) :
    partialSum m c (16 * g + 15) = halfSum (logits m c) g 15 := by
  unfold partialSum halfSum
  have e1 : (16 * g + 15) % 16 = 15 := by omega
  have e2 : 16 * g + 15 - 15 = 16 * g := by omega
  rw [e1, e2]
  refine Finset.sum_congr rfl fun k hk => ?_
  have hk' : k < 16 := Finset.mem_range.mp hk
  exact contrib_eq m c hX (16 * g + k) (by rw [show cfg0.N = 32 from N_0]; omega)

end Cert.KernelIdeal.Body

end
-- ==== Proof.Take.lean ====
/-
  The gather of take_along_axis along axis 1, read at a row.

  Row b of the result reads ONE entry of row b of the operand: the gather's batching axis pairs result row b with
  operand row b, and the column is the start index of row b read signed and clamped into the row — a function of the
  start indices alone, the same whatever array is gathered from. Where the range mask is off the row holds the
  constant with the pattern 0x7FC00000, which at the ideal instance denotes -∞.
-/
import Idealize.ShloMosaic.PureOps.Ideal
import Idealize.ShloMosaic.Lib.ValueIdx
import Idealize.ShloMosaic.Lib.ValueLayout
import Idealize.ShloMosaic.Lib.Pipeline.Value

noncomputable section

namespace Cert.XEnt

open Idealize.ShloMosaic Idealize.ShloMosaic.ValueIdx

/-- The shapes: the logits [4096, 50257], the start indices [4096, 1, 1], a column [4096, 1], a vector [4096], a scalar. -/
abbrev SP : Shape := ⟨2, ![4096, 50257]⟩
abbrev SI3 : Shape := ⟨3, ![4096, 1, 1]⟩
abbrev SC : Shape := ⟨2, ![4096, 1]⟩
abbrev SV : Shape := ⟨1, ![4096]⟩
abbrev S0 : Shape := ⟨0, ![]⟩

/-- take_along_axis's gather: axis 0 batches operand and start indices together, axis 1 is collapsed and indexed. -/
def tkDims (wf : GatherDims.WF SP SI3 SC [] [1] [0] [1] [0] 2 ![1, 1]) : GatherDims SP SI3 SC where
  offsetDims := []
  collapsedSliceDims := [1]
  operandBatchingDims := [0]
  startIndicesBatchingDims := [0]
  startIndexMap := [1]
  indexVectorDim := 2
  sliceSizes := ![1, 1]
  wf := wf

/-- The column the gather reads in row b: a function of the start indices alone. -/
def tkCol (wf : GatherDims.WF SP SI3 SC [] [1] [0] [1] [0] 2 ![1, 1]) (idx : IVec SI3 32) (b : Fin 4096) : Fin 50257 :=
  ⟨(((tkDims wf).operandIdx (ix2 b (0 : Fin 1)) idx) 1).val, (((tkDims wf).operandIdx (ix2 b (0 : Fin 1)) idx) 1).isLt⟩

/-- The gather at row b reads the operand's row b at that column. -/
theorem gather_row {α : Type} (wf : GatherDims.WF SP SI3 SC [] [1] [0] [1] [0] 2 ![1, 1]) (X : SP.Idx → α)
    (idx : IVec SI3 32) (b : Fin 4096) :
    Host.gather (tkDims wf) X idx (ix2 b (0 : Fin 1)) = X (ix2 b (tkCol wf idx b)) := by
  -- the gather reads the operand at its operand index; that index is compared coordinate by coordinate
  unfold Host.gather
  refine congrArg X (funext fun a => ?_)
  match a with
  | ⟨0, _⟩ =>
    -- axis 0 is the batching axis: no start, no offset, and the batching coordinate is the result row
    refine Fin.ext ?_
    show (tkDims wf).start (ix2 b (0 : Fin 1)) idx 0 + (tkDims wf).batchCoord (ix2 b (0 : Fin 1)) 0
      + (tkDims wf).offCoord (ix2 b (0 : Fin 1)) 0 = b.val
    have hmem : (0 : Fin 2) ∈ (tkDims wf).operandBatchingDims := List.mem_singleton.mpr rfl
    rw [GatherDims.start_batching _ _ _ _ hmem,
      GatherDims.offCoord_eq_zero _ _ _ (fun h => ((GatherDims.mem_sKept _ _).mp h).2 hmem)]
    simp only [Nat.zero_add, Nat.add_zero]
    unfold GatherDims.batchCoord
    rw [dif_pos hmem]
    rfl
  | ⟨1, _⟩ => rfl -- axis 1 is the gathered column by definition

/-- take_along_axis at row b, at the ideal instance: the operand's row b at the gathered column where the mask is on,
    -∞ where it is off. -/
theorem take_apply (wf : GatherDims.WF SP SI3 SC [] [1] [0] [1] [0] 2 ![1, 1]) (X : FVec Ideal SP .f32) (mask : IVec SC 1)
    (idx : IVec SI3 32) (hb : S0.BroadcastsInDim SC (![] : Fin 0 → Fin SC.rank)) (hs : SC.ShapeCasts SV) (b : Fin 4096) :
    shapeCast SV (select mask (Host.gather (tkDims wf) X idx)
        (broadcastInDim SC ![] hb (constant (F := Ideal) S0 .f32 0x7FC00000#32))) hs (ix1 b)
      = if mask (ix2 b (0 : Fin 1)) = 1#1 then X (ix2 b (tkCol wf idx b)) else ⊥ := by
  -- the cast [4096, 1] → [4096] at row b reads the column at (b, 0): both have row-major position b
  refine (shapeCast_apply _ hs (ix1 b) (ix2 b (0 : Fin 1)) (by
    rw [Shape.rowMajor_val_two, Shape.rowMajor_val_one]
    show b.val * 1 + 0 = b.val
    rw [Nat.mul_one, Nat.add_zero])).trans ?_
  rw [select_apply]
  by_cases h : mask (ix2 b (0 : Fin 1)) = 1#1
  · -- mask on: the gathered entry
    rw [if_pos h, h, select_one, gather_row]
  · -- mask off: the broadcast scalar constant, whose pattern has an all-ones exponent and a non-zero fraction
    rw [if_neg h, eq_zero_of_ne_one h, select_zero]
    show Ideal.ofBits .f32 0x7FC00000#32 = ⊥
    simp [Ideal.ofBits, Ideal.ieee]

end Cert.XEnt

end
-- ==== Proof.TakeTerms.lean ====
/-
  What both programs compute from the labels, and their common last steps.

  take_along_axis first wraps a negative label once (label + 50257), then gathers at the wrapped label and keeps the
  gathered entry only where 0 ≤ wrapped label ≤ 50256; elsewhere the row holds -∞. The start indices and the range mask
  are functions of the labels alone. Both programs end by negating a scalar and dividing it by 4096.
-/
import proofs.«403744_j34471407518048_4_alg».proof.Proof.Take
import proofs.«403744_j34471407518048_4_alg».proof.Proof.Spec

noncomputable section

namespace Cert.XEnt

open Idealize.ShloMosaic Idealize.ShloMosaic.ValueIdx

abbrev S1v : Shape := ⟨1, ![1]⟩
abbrev S111 : Shape := ⟨3, ![1, 1, 1]⟩

/-- The start indices [4096, 1, 1]: the labels, a negative one wrapped once by adding 50257. -/
def tkIdx (h1 : SV.BroadcastsInDim SC (![0] : Fin 1 → Fin SC.rank)) (h2 : S0.BroadcastsInDim SC (![] : Fin 0 → Fin SC.rank))
    (h3 : SC.ShapeCasts SI3) (t : IVec SV 32) : IVec SI3 32 :=
  shapeCast SI3 (select (cmpi .slt (broadcastInDim SC ![0] h1 t) (broadcastInDim SC ![] h2 (constantI S0 32 0#32)))
    (addi (broadcastInDim SC ![0] h1 t) (broadcastInDim SC ![] h2 (constantI S0 32 50257#32)))
    (broadcastInDim SC ![0] h1 t)) h3

/-- The range mask [4096, 1]: on where 0 ≤ start index ≤ 50256. -/
def tkMask (h1 : SV.BroadcastsInDim SC (![0] : Fin 1 → Fin SC.rank)) (h2 : S0.BroadcastsInDim SC (![] : Fin 0 → Fin SC.rank))
    (h3 : SC.ShapeCasts SI3) (h4 : S0.BroadcastsInDim SI3 (![] : Fin 0 → Fin SI3.rank))
    (h5 : S1v.BroadcastsInDim S111 (![2] : Fin 1 → Fin S111.rank))
    (h6 : S111.BroadcastsInDim SI3 (![0, 1, 2] : Fin 3 → Fin SI3.rank)) (h7 : SI3.ReducesTo [2] SC) (h8 : 0 < S0.numel)
    (t : IVec SV 32) : IVec SC 1 :=
  Host.reduce IntOp.andi
    (andi (cmpi .sge (tkIdx h1 h2 h3 t) (broadcastInDim SI3 ![] h4 (constantI S0 32 0#32)))
      (cmpi .sle (tkIdx h1 h2 h3 t) (broadcastInDim SI3 ![0, 1, 2] h6 (broadcastInDim S111 ![2] h5 (constantI S1v 32 50256#32)))))
    (constantI S0 1 1#1) h7 h8

/-- The gathered logit of row b: the row's entry at the gathered column where the mask is on, -∞ where it is off. -/
def gathered (wf : GatherDims.WF SP SI3 SC [] [1] [0] [1] [0] 2 ![1, 1]) (mask : IVec SC 1) (idx : IVec SI3 32)
    (X : Logits) (b : Fin 4096) : EReal :=
  if mask (ix2 b (0 : Fin 1)) = 1#1 then X (ix2 b (tkCol wf idx b)) else ⊥

/-- Both programs' last two steps on a scalar: negate, divide by 4096. -/
def meanNeg (inner : EReal) : FVec Ideal S0 .f32 :=
  Host.divf (Host.negf (fun _ : S0.Idx => inner)) (constant (F := Ideal) S0 .f32 0x45800000#32)

end Cert.XEnt

end
-- ==== Proof.KernelHost.lean ====
/-
  The kernel program's host side.

  Before the region the host gathers one logit per row (take_along_axis on the logits themselves) and sums them;
  after the region it adds the two halves' accumulated log-sum-exps, subtracts that from the sum of gathered logits,
  negates and divides by 4096.
-/
import proofs.«403744_j34471407518048_4_alg».proof.Proof.OutArray
import proofs.«403744_j34471407518048_4_alg».proof.Proof.BlockRows
import proofs.«403744_j34471407518048_4_alg».proof.Proof.TakeTerms
import Idealize.ShloMosaic.Lib.StableHlo.Run
import Idealize.ShloMosaic.PureOps.Ideal.Laws

set_option maxRecDepth 65536

noncomputable section

namespace Cert.KernelIdeal.Body

open Cert.KernelIdeal Cert.KernelIdeal.Gen Idealize.ShloMosaic Idealize.ShloMosaic.TcCoe
open Idealize.ShloMosaic.ValueIdx Idealize.SL Idealize.SL.Sem Idealize.ShloMosaic.StableHlo Cert.XEnt

variable (m : (ℓ : Loc nD τ sig) → Buf (Elt Ideal) ℓ)

/-- A rank-1 index set is its one coordinate's range. -/
def idxEquiv1 {n : ℕ} : (⟨1, ![n]⟩ : Shape).Idx ≃ Fin n where
  toFun j := j 0
  invFun a := ix1 a
  left_inv j := by funext d; match d with | ⟨0, _⟩ => rfl
  right_inv _ := rfl

/-- A sum over a rank-1 index set is the sum over the coordinate. -/
theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]; rfl

/-- The labels as the kernel program is launched with them. -/
abbrev labels (c : Dev nD) : IVec S4096 32 := m ((c.tc : Thread nD τ).loc main_arg1)

/-- The start indices and the range mask the kernel program computes from the labels t. -/
abbrev idxK (t : IVec S4096 32) : IVec S4096x1x1 32 :=
  tkIdx bcast_S4096_S4096x1_0 bcast_S_S4096x1 shapeCasts_S4096x1_S4096x1x1 t
abbrev maskK (t : IVec S4096 32) : IVec S4096x1 1 :=
  tkMask bcast_S4096_S4096x1_0 bcast_S_S4096x1 shapeCasts_S4096x1_S4096x1x1 bcast_S_S4096x1x1 bcast_S1_S1x1x1_2
    bcast_S1x1x1_S4096x1x1_0_1_2 reducesTo_S4096x1x1_S4096x1_d2 h_S_ t

set_option maxHeartbeats 2000000 in
/-- Before the region: the sum over the rows of the gathered logits. -/
theorem pre_sum (c : Dev nD) :
    V m c main_v3 = fun _ => 0 + ∑ b : Fin 4096,
      gathered gather_S4096x50257_S4096x1x1_S4096x1_n_1_0_0_1_2_11_wf (maskK (labels m c)) (idxK (labels m c)) (logits m c) b := by
  dsimp only [V, V0]
  simp only [hostOps0, hostOps0_1, hostOps0_2, List.flatten_cons, List.flatten_nil, List.append_nil, List.cons_append, List.nil_append]
  after_results_simp
  simp only [TRef.ofBuf, TRef.toBuf, cast_eq]
  funext i
  simp only [Host.reduceAdd, Ideal.hostReduceAdd_def]
  refine (Ideal.hostReduceAdd_total reducesTo_S4096_S_d0 (fun b => b.elim0) _ _ i).trans ?_
  refine congrArg₂ (· + ·) Ideal.ofBits_zero_f32 ?_
  refine (sum_idx1 _).trans ?_
  refine Finset.sum_congr rfl fun b _ => ?_
  exact take_apply gather_S4096x50257_S4096x1x1_S4096x1_n_1_0_0_1_2_11_wf (logits m c) (maskK (labels m c)) (idxK (labels m c))
    bcast_S_S4096x1 shapeCasts_S4096x1_S4096 b

/-- The scalar shape has one index. -/
instance subsingleton_S_ : Subsingleton S_.Idx := ⟨fun a b => funext fun d => d.elim0⟩

/-- The [1, 1, 1] slice of a [2, 8, 128] array at offsets (g, 0, 0), recast to a scalar, is the array's entry (g, 0, 0). -/
theorem slice_entry (A : Vec Ideal S2x8x128 .f32) (g : Fin 2) (off : Fin 3 → ℕ) (hoff : off = ![g.val, 0, 0])
    (sl : S2x8x128.Slices off S1x1x1) (sc : S1x1x1.ShapeCasts S_) (i : S_.Idx) :
    shapeCast S_ (extractStridedSlice S1x1x1 off A sl) sc i = A (ix3 g (0 : Fin 8) (0 : Fin 128)) := by
  subst hoff
  rw [shapeCast_apply _ sc i (ix3 (0 : Fin 1) (0 : Fin 1) (0 : Fin 1)) (by
    rw [Shape.rowMajor_val_three]
    have h := (Shape.rowMajor (s := S_) i).isLt
    change _ < 1 at h
    show ((0 : ℕ) * 1 + 0) * 1 + 0 = _
    omega)]
  unfold extractStridedSlice
  congr 1
  funext a; apply Fin.ext
  match a with
  | ⟨0, _⟩ => show g.val + 0 = g.val; omega
  | ⟨1, _⟩ => rfl
  | ⟨2, _⟩ => rfl

/-- The sum of gathered logits the region finds in its buffer, as a scalar array of extended reals. -/
abbrev preSum (c : Dev nD) : FVec Ideal S_ .f32 := V m c main_v3

/-- The result array of the region, as an array of extended reals. -/
abbrev outFinal (c : Dev nD) : Vec Ideal S2x8x128 .f32 := (dats m 0 c).arrAt 1 cfg0.N

set_option maxHeartbeats 2000000 in
/-- After the region: the result buffer from the sum of gathered logits and the result array's entries (0,0,0), (1,0,0). -/
theorem tail_value (c : Dev nD) :
    Pipeline.afterTail₀ cfgs (dats m) 0 (V0 m) [hostOps1] c main_v12
      = meanNeg (preSum m c ix0
          - (outFinal m c (ix3 (0 : Fin 2) (0 : Fin 8) (0 : Fin 128)) + outFinal m c (ix3 (1 : Fin 2) (0 : Fin 8) (0 : Fin 128)))) := by
  unfold Pipeline.afterTail₀
  show StableHlo.after hostOps1 _ (Proc.devRef .tc main_v12) = _
  after_results
  rw [Pipeline.withArrays_of_ne _ c (V0 m c) _ main_v3 (by exact (by decide : ∀ w, Pipeline.arrRef spec0 w ≠ main_v3))]
  rw [show Pipeline.withArrays (cfgs 0).spec c (V0 m c) (fun w => (dats m 0 c).arrAt w (cfgs 0).N) (Proc.devRef .tc main_v4)
      = (dats m 0 c).arrAt 1 cfg0.N from Pipeline.withArrays_arr spec0 launch0.win.arr_inj c (V0 m c) _ 1]
  unfold meanNeg
  refine congrArg (fun z => Host.divf (Host.negf z) _) ?_
  funext i
  obtain rfl : i = ix0 := Subsingleton.elim _ _
  refine congrArg₂ (· - ·) rfl (congrArg₂ (· + ·) ?_ ?_)
  · exact slice_entry (outFinal m c) 0 _ rfl _ _ _
  · exact slice_entry (outFinal m c) 1 _ rfl _ _ _

end Cert.KernelIdeal.Body

end
-- ==== Proof.KernelRun.lean ====
/-
  The kernel program's run, read: with every logit real its result is minus, over 4096, of (the sum of the gathered
  logits minus the two halves' sums of log-sum-exps), and its arguments end unchanged.
-/
import proofs.«403744_j34471407518048_4_alg».proof.Proof.KernelHost

set_option maxRecDepth 65536

noncomputable section

namespace Cert.KernelIdeal.Body

open Cert.KernelIdeal Cert.KernelIdeal.Gen Idealize.ShloMosaic Idealize.ShloMosaic.TcCoe
open Idealize.ShloMosaic.ValueIdx Idealize.SL Idealize.SL.Sem Idealize.ShloMosaic.StableHlo Cert.XEnt

variable (m : (ℓ : Loc nD τ sig) → Buf (Elt Ideal) ℓ) (ρ : Dev nD → PrngReg)

/-- The sum of the gathered logits, as the kernel program computes it from its arguments. -/
abbrev gatheredSum (c : Dev nD) : EReal :=
  0 + ∑ b : Fin 4096,
    gathered gather_S4096x50257_S4096x1x1_S4096x1_n_1_0_0_1_2_11_wf (maskK (labels m c)) (idxK (labels m c)) (logits m c) b

/-- The result buffer after the host tail, over real logits. -/
theorem kernel_value (c : Dev nD) (hX : ∀ i, ∃ r : ℝ, logits m c i = (r : EReal)) :
    Pipeline.afterTail₀ cfgs (dats m) 0 (V0 m) [hostOps1] c main_v12
      = meanNeg (gatheredSum m c - (halfSum (logits m c) 0 15 + halfSum (logits m c) 1 15)) := by
  rw [tail_value]
  have e0 : preSum m c ix0 = gatheredSum m c := by
    show (V m c main_v3 : FVec Ideal S_ .f32) ix0 = _
    rw [pre_sum]
  have e1 : outFinal m c (ix3 (0 : Fin 2) (0 : Fin 8) (0 : Fin 128)) = halfSum (logits m c) 0 15 :=
    (out_entry m c 0).trans (partialSum_half m c hX 0 (by decide))
  have e2 : outFinal m c (ix3 (1 : Fin 2) (0 : Fin 8) (0 : Fin 128)) = halfSum (logits m c) 1 15 :=
    (out_entry m c 1).trans (partialSum_half m c hX 1 (by decide))
  rw [e0, e1, e2]

/-- THE KERNEL'S RUN: every weakly fair execution terminates with the result buffer at that value and the arguments
    unchanged. -/
theorem kernel_run (hX : ∀ (c : Dev nD) i, ∃ r : ℝ, logits m c i = (r : EReal)) :
    θ_run defs (onTc (τ := τ) (main (F := Ideal))) ⟨m, fun _ => 0, ρ⟩ (fun r => ∀ c : Dev nD,
      r.2.mem ((c.tc : Thread nD τ).loc main_v12)
          = meanNeg (gatheredSum m c - (halfSum (logits m c) 0 15 + halfSum (logits m c) 1 15))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v12 (Pipeline.mem_restRefs_of main_v12 (by decide) (by decide))).trans (kernel_value m c (hX c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Body

end
-- ==== Proof.RefSide.lean ====
/-
  The reference program's result as mathematics: minus the mean, over the 4096 rows, of (gathered logit − the row's
  log-sum-exp) — when every logit is a real number.

  The reference takes the log-softmax of the whole array and gathers one entry per row. Row b of the log-softmax at
  column j is the logit (b, j) minus the row's log-sum-exp; the gather reads it at the gathered column where the
  range mask is on and leaves -∞ where it is off, and -∞ minus a real is -∞.

  The run's list writes the operations of the two called functions over typed references, each value carried along
  the equation between its buffer's type and its own; the same 44 operations written over the buffers directly are
  the same list, and their fold is one composed term over the two arguments. That term is read from the outside in:
  the division and negation are common to both sides, the sum into a scalar is 0 plus the sum over the rows, and
  row b is the gathered log-softmax entry, read operation by operation.
-/
import proofs.«403744_j34471407518048_4_alg».proof.Proof.RefRunP
import proofs.«403744_j34471407518048_4_alg».proof.Proof.RefReadP
import proofs.«403744_j34471407518048_4_alg».proof.Proof.TakeTerms
import proofs.«403744_j34471407518048_4_alg».proof.Proof.SpecLaws
import proofs.«403744_j34471407518048_4_alg».proof.Proof.LibRowOps
import Idealize.ShloMosaic.PureOps.Ideal.Laws
import Idealize.ShloMosaic.Lib.ValueIdxRank1

noncomputable section

namespace Cert.ReferenceIdeal.RefValue

open Cert.ReferenceIdeal Cert.ReferenceIdeal.Gen Cert.ReferenceIdeal.ValueP Idealize.ShloMosaic Idealize.ShloMosaic.TcCoe
open Idealize.SL.Sem Idealize.ShloMosaic.StableHlo Idealize.ShloMosaic.ValueIdx Cert.XEnt

/-- The start indices and the range mask the reference computes from the labels t. -/
abbrev idxR (t : IVec S4096 32) : IVec S4096x1x1 32 :=
  tkIdx bcast_S4096_S4096x1_0 bcast_S_S4096x1 shapeCasts_S4096x1_S4096x1x1 t
abbrev maskR (t : IVec S4096 32) : IVec S4096x1 1 :=
  tkMask bcast_S4096_S4096x1_0 bcast_S_S4096x1 shapeCasts_S4096x1_S4096x1x1 bcast_S_S4096x1x1 bcast_S1_S1x1x1_2
    bcast_S1x1x1_S4096x1x1_0_1_2 reducesTo_S4096x1x1_S4096x1_d2 h_S_ t

/-! ## The log-softmax at an entry -/

open Cert.ReferenceIdeal.ReadP

/-- The pattern 0xFF800000 is -∞. -/
theorem ofBits_ninf : Ideal.ofBits .f32 0xFF800000#32 = ⊥ := by
  simp [Ideal.ofBits, Ideal.ieee]

/-- Entry (b, j) of the [4096, 50257] array read through the broadcast of a column: the column at (b, 0). -/
theorem idx_col (b : Fin 4096) (j : Fin 50257) : idx_main_call0_v4 (ix2 b j) = ix2 b (0 : Fin 1) := by
  funext a; match a with | ⟨0, _⟩ => rfl | ⟨1, _⟩ => rfl

/-- Entry (b, 0) of a column read through the broadcast of a vector: the vector at b. -/
theorem idx_vec (b : Fin 4096) (u : Fin 1) : idx_main_call0_v3 (ix2 b u) = ix1 b := by
  funext a; match a with | ⟨0, _⟩ => rfl

/-- The same two readings for the column of logs and the vector of row sums. -/
theorem idx_col' (b : Fin 4096) (j : Fin 50257) : idx_main_call0_v10 (ix2 b j) = ix2 b (0 : Fin 1) := by
  funext a; match a with | ⟨0, _⟩ => rfl | ⟨1, _⟩ => rfl

@[inherit_doc idx_col']
theorem idx_vec' (b : Fin 4096) (u : Fin 1) : idx_main_call0_v8 (ix2 b u) = ix1 b := by
  funext a; match a with | ⟨0, _⟩ => rfl

/-- Column k of row b, as the index the row sum reads. -/
theorem idx_row (b : Fin 4096) (k : Fin 50257) : idx_main_call0_v7 (ix1 b) k = ix2 b k := by
  funext a; match a with | ⟨0, _⟩ => rfl | ⟨1, _⟩ => rfl

/-- The shift the log-softmax subtracts in row b: the row's maximum, maxed with -∞ once more. -/
theorem shift_apply (X : FVec Ideal S4096x50257 .f32) (b : Fin 4096) (j : Fin 50257) :
    val_main_call0_v4 (F := Ideal) X (ix2 b j) = max ⊥ (rmax (rowOf X b)) := by
  rw [val_main_call0_v4_apply, idx_col, val_main_call0_v3_apply, idx_vec, val_main_call0_v2_apply,
    val_main_call0_v1_apply, val_main_call0_cst_0_apply, Ideal.maximumf_def, Ideal.ofBits_def, ofBits_ninf]
  refine congrArg (max ⊥) ?_
  unfold val_main_call0_v0
  refine (Cert.RowOps.hostRowMax_apply X _ reducesTo_S4096x50257_S4096_d1 (by decide) h_S_ b).trans ?_
  rw [val_main_call0_cst_apply, Ideal.ofBits_def, ofBits_ninf]
  rfl

/-- The shifted logit at (b, j). -/
theorem shifted_apply (X : FVec Ideal S4096x50257 .f32) (b : Fin 4096) (j : Fin 50257) :
    val_main_call0_v5 (F := Ideal) X (ix2 b j) = X (ix2 b j) - max ⊥ (rmax (rowOf X b)) := by
  rw [val_main_call0_v5_apply, Ideal.subf_def, shift_apply]

/-- The log of the row's sum of shifted exponentials, as the log-softmax subtracts it at (b, j). -/
theorem logsum_apply (X : FVec Ideal S4096x50257 .f32) (b : Fin 4096) (j : Fin 50257) :
    val_main_call0_v10 (F := Ideal) X (ix2 b j)
      = Ideal.log (0 + ∑ k : Fin 50257, Ideal.exp (X (ix2 b k) - max ⊥ (rmax (rowOf X b)))) := by
  rw [val_main_call0_v10_apply, idx_col', val_main_call0_v9_apply, Ideal.hostUnary_log_def, val_main_call0_v8_apply, idx_vec',
    val_main_call0_v7_apply, val_main_call0_cst_1_apply, Ideal.ofBits_def, Ideal.ofBits_zero_f32]
  refine congrArg (fun z => Ideal.log (0 + z)) (Finset.sum_congr rfl fun k _ => ?_)
  rw [idx_row, val_main_call0_v6_apply, Ideal.hostUnary_exp_def, shifted_apply]

/-- The log-softmax of an array of real logits at (b, j): the logit minus its row's log-sum-exp. -/
theorem logsoftmax_apply (X : FVec Ideal S4096x50257 .f32) (hX : ∀ i, ∃ r : ℝ, X i = (r : EReal)) (b : Fin 4096)
    (j : Fin 50257) : val_main_v0 (F := Ideal) X (ix2 b j) = X (ix2 b j) - lse (rowOf X b) := by
  choose xr hxr using fun k : Fin 50257 => hX (ix2 b k)
  have hrow : rowOf X b = fun k => ((xr k : ℝ) : EReal) := funext hxr
  rw [val_main_v0_apply, Ideal.subf_def, shifted_apply, logsum_apply, hrow]
  simp only [hxr]
  exact logsoftmax_entry xr j

/-! ## A row of the sum, and the sum -/

/-- Row b of what the reference sums: the gathered logit minus the row's log-sum-exp (-∞ where the range mask is off). -/
theorem row_apply (X : FVec Ideal S4096x50257 .f32) (hX : ∀ i, ∃ r : ℝ, X i = (r : EReal)) (T : IVec S4096 32) (b : Fin 4096) :
    shapeCast S4096 (select (maskR T)
        (Host.gather (tkDims gather_S4096x50257_S4096x1x1_S4096x1_n_1_0_0_1_2_11_wf) (val_main_v0 (F := Ideal) X) (idxR T))
        (broadcastInDim S4096x1 ![] bcast_S_S4096x1 (constant (F := Ideal) S_ .f32 0x7FC00000#32))) shapeCasts_S4096x1_S4096 (ix1 b)
      = gathered gather_S4096x50257_S4096x1x1_S4096x1_n_1_0_0_1_2_11_wf (maskR T) (idxR T) X b - lse (rowOf X b) := by
  rw [take_apply]
  unfold gathered
  by_cases h : maskR T (ix2 b (0 : Fin 1)) = 1#1
  · rw [if_pos h, if_pos h, logsoftmax_apply X hX]
  · rw [if_neg h, if_neg h, EReal.bot_sub]

/-- The host's sum of a vector [4096] into a scalar, from the constant 0: 0 plus the sum of the entries. -/
theorem total_apply (y : FVec Ideal S4096 .f32) (i : S_.Idx) :
    Host.reduceAdd y (constant (F := Ideal) S_ .f32 0x00000000#32) reducesTo_S4096_S_d0 h_S_ i
      = 0 + ∑ b : Fin 4096, y (ix1 b) := by
  simp only [Host.reduceAdd, Ideal.hostReduceAdd_def]
  rw [Ideal.hostReduceAdd_total reducesTo_S4096_S_d0 (fun b => b.elim0) y _ i]
  refine congrArg₂ (· + ·) Ideal.ofBits_zero_f32 ?_
  exact (Equiv.sum_comp (idxEquiv1 (n := 4096)).symm y).symm

/-- The reference's composed term over an array X of real logits and labels T: minus the mean of (gathered logit − log-sum-exp). -/
theorem core (X : FVec Ideal S4096x50257 .f32) (T : IVec S4096 32) (hX : ∀ i, ∃ r : ℝ, X i = (r : EReal)) :
    Host.divf (Host.negf (Host.reduceAdd (shapeCast _ (select (Host.reduce IntOp.andi (andi (cmpi .sge (shapeCast _ (select (cmpi .slt (broadcastInDim S4096x1 ![0] bcast_S4096_S4096x1_0 T) (broadcastInDim S4096x1 ![] bcast_S_S4096x1 (constantI S_ 32 0#32))) (addi (broadcastInDim S4096x1 ![0] bcast_S4096_S4096x1_0 T) (broadcastInDim S4096x1 ![] bcast_S_S4096x1 (constantI S_ 32 50257#32))) (broadcastInDim S4096x1 ![0] bcast_S4096_S4096x1_0 T)) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 T) (broadcastInDim S4096x1 ![] bcast_S_S4096x1 (constantI S_ 32 0#32))) (addi (broadcastInDim S4096x1 ![0] bcast_S4096_S4096x1_0 T) (broadcastInDim S4096x1 ![] bcast_S_S4096x1 (constantI S_ 32 50257#32))) (broadcastInDim S4096x1 ![0] bcast_S4096_S4096x1_0 T)) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (subf (subf X (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf X (constant S_ .f32 0xFF800000#32) reducesTo_S4096x50257_S4096_d1 h_S_))))) (broadcastInDim S4096x50257 ![0, 1] bcast_S4096x1_S4096x50257_0_1 (Host.log (broadcastInDim S4096x1 ![0] bcast_S4096_S4096x1_0 (Host.reduceAdd (Host.exp (subf X (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf X (constant S_ .f32 0xFF800000#32) reducesTo_S4096x50257_S4096_d1 h_S_)))))) (constant S_ .f32 0x00000000#32) reducesTo_S4096x50257_S4096_d1 h_S_))))) (shapeCast _ (select (cmpi .slt (broadcastInDim S4096x1 ![0] bcast_S4096_S4096x1_0 T) (broadcastInDim S4096x1 ![] bcast_S_S4096x1 (constantI S_ 32 0#32))) (addi (broadcastInDim S4096x1 ![0] bcast_S4096_S4096x1_0 T) (broadcastInDim S4096x1 ![] bcast_S_S4096x1 (constantI S_ 32 50257#32))) (broadcastInDim S4096x1 ![0] bcast_S4096_S4096x1_0 T)) shapeCasts_S4096x1_S4096x1x1)) (broadcastInDim S4096x1 ![] bcast_S_S4096x1 (constant S_ .f32 0x7FC00000#32))) shapeCasts_S4096x1_S4096) (constant S_ .f32 0x00000000#32) reducesTo_S4096_S_d0 h_S_)) (constant S_ .f32 0x45800000#32)
      = meanNeg (0 + ∑ b : Fin 4096,
          (gathered gather_S4096x50257_S4096x1x1_S4096x1_n_1_0_0_1_2_11_wf (maskR T) (idxR T) X b
            - lse (rowOf X b))) := by
  show Host.divf (Host.negf (Host.reduceAdd (shapeCast S4096 (select (maskR T)
      (Host.gather (tkDims gather_S4096x50257_S4096x1x1_S4096x1_n_1_0_0_1_2_11_wf) (val_main_v0 (F := Ideal) X) (idxR T))
      (broadcastInDim S4096x1 ![] bcast_S_S4096x1 (constant (F := Ideal) S_ .f32 0x7FC00000#32))) shapeCasts_S4096x1_S4096)
    (constant (F := Ideal) S_ .f32 0x00000000#32) reducesTo_S4096_S_d0 h_S_)) (constant (F := Ideal) S_ .f32 0x45800000#32) = _
  unfold meanNeg
  refine congrArg (fun z => Host.divf (Host.negf z) (constant (F := Ideal) S_ .f32 0x45800000#32)) (funext fun i => ?_)
  rw [total_apply]
  exact congrArg (0 + ·) (Finset.sum_congr rfl fun b _ => row_apply X hX T b)

/-! ## The operations over the buffers -/

section Untyped

variable {F : FTy → Type} [FloatOps F]

/-- The reference's 44 operations, each written over its buffers as they are: the same list as the run's. -/
abbrev opsU : List (HloOp τ sig (Elt F)) :=
  [ nullary main_call0_cst ((constant S_ .f32 0xFF800000#32) : (⟨S_, .f32⟩ : BufTy).Contents (Elt F)),
    binary main_arg0 main_call0_cst main_call0_v0 ((fun x v => Host.reduce FloatOps.maximumf x v reducesTo_S4096x50257_S4096_d1 h_S_) : (⟨S4096x50257, .f32⟩ : BufTy).Contents (Elt F) → (⟨S_, .f32⟩ : BufTy).Contents (Elt F) → (⟨S4096, .f32⟩ : BufTy).Contents (Elt F)),
    nullary main_call0_cst_0 ((constant S_ .f32 0xFF800000#32) : (⟨S_, .f32⟩ : BufTy).Contents (Elt F)),
    unary main_call0_cst_0 main_call0_v1 ((broadcastInDim S4096 ![] bcast_S_S4096) : (⟨S_, .f32⟩ : BufTy).Contents (Elt F) → (⟨S4096, .f32⟩ : BufTy).Contents (Elt F)),
    binary main_call0_v1 main_call0_v0 main_call0_v2 (maximumf : (⟨S4096, .f32⟩ : BufTy).Contents (Elt F) → (⟨S4096, .f32⟩ : BufTy).Contents (Elt F) → (⟨S4096, .f32⟩ : BufTy).Contents (Elt F)),
    unary main_call0_v2 main_call0_v3 ((broadcastInDim S4096x1 ![0] bcast_S4096_S4096x1_0) : (⟨S4096, .f32⟩ : BufTy).Contents (Elt F) → (⟨S4096x1, .f32⟩ : BufTy).Contents (Elt F)),
    unary main_call0_v3 main_call0_v4 ((broadcastInDim S4096x50257 ![0, 1] bcast_S4096x1_S4096x50257_0_1) : (⟨S4096x1, .f32⟩ : BufTy).Contents (Elt F) → (⟨S4096x50257, .f32⟩ : BufTy).Contents (Elt F)),
    binary main_arg0 main_call0_v4 main_call0_v5 (subf : (⟨S4096x50257, .f32⟩ : BufTy).Contents (Elt F) → (⟨S4096x50257, .f32⟩ : BufTy).Contents (Elt F) → (⟨S4096x50257, .f32⟩ : BufTy).Contents (Elt F)),
    unary main_call0_v5 main_call0_v6 (Host.exp : (⟨S4096x50257, .f32⟩ : BufTy).Contents (Elt F) → (⟨S4096x50257, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S4096x50257_S4096_d1 h_S_) : (⟨S4096x50257, .f32⟩ : BufTy).Contents (Elt F) → (⟨S_, .f32⟩ : BufTy).Contents (Elt F) → (⟨S4096, .f32⟩ : BufTy).Contents (Elt F)),
    unary main_call0_v7 main_call0_v8 ((broadcastInDim S4096x1 ![0] bcast_S4096_S4096x1_0) : (⟨S4096, .f32⟩ : BufTy).Contents (Elt F) → (⟨S4096x1, .f32⟩ : BufTy).Contents (Elt F)),
    unary main_call0_v8 main_call0_v9 (Host.log : (⟨S4096x1, .f32⟩ : BufTy).Contents (Elt F) → (⟨S4096x1, .f32⟩ : BufTy).Contents (Elt F)),
    unary main_call0_v9 main_call0_v10 ((broadcastInDim S4096x50257 ![0, 1] bcast_S4096x1_S4096x50257_0_1) : (⟨S4096x1, .f32⟩ : BufTy).Contents (Elt F) → (⟨S4096x50257, .f32⟩ : BufTy).Contents (Elt F)),
    binary main_call0_v5 main_call0_v10 main_v0 (subf : (⟨S4096x50257, .f32⟩ : BufTy).Contents (Elt F) → (⟨S4096x50257, .f32⟩ : BufTy).Contents (Elt F) → (⟨S4096x50257, .f32⟩ : BufTy).Contents (Elt F)),
    unary main_arg1 main_v1 (broadcastInDim S4096x1 ![0] bcast_S4096_S4096x1_0 : (⟨S4096, .i32⟩ : BufTy).Contents (Elt F) → (⟨S4096x1, .i32⟩ : BufTy).Contents (Elt F)),
    nullary main_call1_c ((constantI S_ 32 0#32) : (⟨S_, .i32⟩ : BufTy).Contents (Elt F)),
    unary main_call1_c main_call1_v0 ((broadcastInDim S4096x1 ![] bcast_S_S4096x1) : (⟨S_, .i32⟩ : BufTy).Contents (Elt F) → (⟨S4096x1, .i32⟩ : BufTy).Contents (Elt F)),
    binary main_v1 main_call1_v0 main_call1_v1 ((cmpi .slt) : (⟨S4096x1, .i32⟩ : BufTy).Contents (Elt F) → (⟨S4096x1, .i32⟩ : BufTy).Contents (Elt F) → (⟨S4096x1, .i1⟩ : BufTy).Contents (Elt F)),
    nullary main_call1_c_0 ((constantI S_ 32 50257#32) : (⟨S_, .i32⟩ : BufTy).Contents (Elt F)),
    unary main_call1_c_0 main_call1_v2 ((broadcastInDim S4096x1 ![] bcast_S_S4096x1) : (⟨S_, .i32⟩ : BufTy).Contents (Elt F) → (⟨S4096x1, .i32⟩ : BufTy).Contents (Elt F)),
    binary main_v1 main_call1_v2 main_call1_v3 (addi : (⟨S4096x1, .i32⟩ : BufTy).Contents (Elt F) → (⟨S4096x1, .i32⟩ : BufTy).Contents (Elt F) → (⟨S4096x1, .i32⟩ : BufTy).Contents (Elt F)),
    ternary main_call1_v1 main_call1_v3 main_v1 main_call1_v4 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    reshape main_call1_v4 main_call1_v5 rfl shapeCasts_S4096x1_S4096x1x1,
    nullary main_call1_c_1 ((constantI S1 32 50256#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S4096x1x1 ![] bcast_S_S4096x1x1) : (⟨S_, .i32⟩ : BufTy).Contents (Elt F) → (⟨S4096x1x1, .i32⟩ : BufTy).Contents (Elt F)),
    binary main_call1_v5 main_call1_v6 main_call1_v7 ((cmpi .sge) : (⟨S4096x1x1, .i32⟩ : BufTy).Contents (Elt F) → (⟨S4096x1x1, .i32⟩ : BufTy).Contents (Elt F) → (⟨S4096x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S4096x1x1 ![0, 1, 2] bcast_S1x1x1_S4096x1x1_0_1_2) : (⟨S1x1x1, .i32⟩ : BufTy).Contents (Elt F) → (⟨S4096x1x1, .i32⟩ : BufTy).Contents (Elt F)),
    binary main_call1_v5 main_call1_v9 main_call1_v10 ((cmpi .sle) : (⟨S4096x1x1, .i32⟩ : BufTy).Contents (Elt F) → (⟨S4096x1x1, .i32⟩ : BufTy).Contents (Elt F) → (⟨S4096x1x1, .i1⟩ : BufTy).Contents (Elt F)),
    binary main_call1_v7 main_call1_v10 main_call1_v11 (andi : (⟨S4096x1x1, .i1⟩ : BufTy).Contents (Elt F) → (⟨S4096x1x1, .i1⟩ : BufTy).Contents (Elt F) → (⟨S4096x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S4096x1x1_S4096x1_d2 h_S_) : (⟨S4096x1x1, .i1⟩ : BufTy).Contents (Elt F) → (⟨S_, .i1⟩ : BufTy).Contents (Elt F) → (⟨S4096x1, .i1⟩ : BufTy).Contents (Elt F)),
    binary main_v0 main_call1_v5 main_call1_v13 ((fun x i => Host.gather gather_S4096x50257_S4096x1x1_S4096x1_n_1_0_0_1_2_11 x i) : (⟨S4096x50257, .f32⟩ : BufTy).Contents (Elt F) → (⟨S4096x1x1, .i32⟩ : BufTy).Contents (Elt F) → (⟨S4096x1, .f32⟩ : BufTy).Contents (Elt F)),
    nullary main_call1_cst ((constant S_ .f32 0x7FC00000#32) : (⟨S_, .f32⟩ : BufTy).Contents (Elt F)),
    unary main_call1_cst main_call1_v14 ((broadcastInDim S4096x1 ![] bcast_S_S4096x1) : (⟨S_, .f32⟩ : BufTy).Contents (Elt F) → (⟨S4096x1, .f32⟩ : BufTy).Contents (Elt F)),
    ternary main_call1_v12 main_call1_v13 main_call1_v14 main_v2 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)),
    reshape main_v2 main_v3 rfl shapeCasts_S4096x1_S4096,
    nullary main_cst (constant S_ .f32 0x00000000#32),
    binary main_v3 main_cst main_v4 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)),
    nullary main_cst_0 (constant S_ .f32 0x45800000#32),
    binary main_v5 main_cst_0 main_v6 (Host.divf : (⟨S_, .f32⟩ : BufTy).Contents (Elt F) → (⟨S_, .f32⟩ : BufTy).Contents (Elt F) → (⟨S_, .f32⟩ : BufTy).Contents (Elt F)) ]

/-- The row maximum written over typed references is the row maximum over the buffers. -/
theorem op_rowmax_eq : (TRef.binary (TRef.of (T := ⟨S4096x50257, .f32⟩) main_arg0) (TRef.of (T := ⟨S_, .f32⟩) main_call0_cst) (TRef.of (T := ⟨S4096, .f32⟩) main_call0_v0) (fun x v => Host.reduce FloatOps.maximumf x v reducesTo_S4096x50257_S4096_d1 h_S_) : HloOp τ sig (Elt F))
      = binary main_arg0 main_call0_cst main_call0_v0 ((fun x v => Host.reduce FloatOps.maximumf x v reducesTo_S4096x50257_S4096_d1 h_S_) : (⟨S4096x50257, .f32⟩ : BufTy).Contents (Elt F) → (⟨S_, .f32⟩ : BufTy).Contents (Elt F) → (⟨S4096, .f32⟩ : BufTy).Contents (Elt F)) := by
  unfold TRef.binary
  refine congrArg (fun g => StableHlo.binary main_arg0 main_call0_cst main_call0_v0 g _ _ _) ?_
  funext u v
  simp only [TRef.toBuf, TRef.ofBuf, cast_eq]

set_option maxRecDepth 8192 in
theorem ops_eq : ops (F := F) = opsU :=
  congrArg₂ List.cons rfl (congrArg₂ List.cons op_rowmax_eq rfl)

end Untyped

/-! ## The result buffer -/

set_option maxRecDepth 65536 in
set_option maxHeartbeats 2000000 in
/-- The reference's result buffer after its run, over real logits: minus the mean of (gathered logit − log-sum-exp). -/
theorem ref_value (m : (ℓ : Loc nD τ sig) → Buf (Elt Ideal) ℓ) (c : Dev nD)
    (hX : ∀ i, ∃ r : ℝ, launchContents m c (Proc.devRef .tc main_arg0) i = (r : EReal)) :
    after (ops (F := Ideal)) (launchContents m c) (Proc.devRef .tc main_v6)
      = meanNeg (0 + ∑ b : Fin 4096,
          (gathered gather_S4096x50257_S4096x1x1_S4096x1_n_1_0_0_1_2_11_wf
              (maskR (launchContents m c (Proc.devRef .tc main_arg1))) (idxR (launchContents m c (Proc.devRef .tc main_arg1)))
              (launchContents m c (Proc.devRef .tc main_arg0)) b
            - lse (rowOf (launchContents m c (Proc.devRef .tc main_arg0)) b))) := by
  rw [ops_eq]
  after_results_simp
  exact core (launchContents m c (Proc.devRef .tc main_arg0)) (launchContents m c (Proc.devRef .tc main_arg1)) hX

end Cert.ReferenceIdeal.RefValue

end
-- ==== Proof.RefArgs.lean ====
/-
  The reference program writes neither of its arguments: folded over the launch contents, its operations leave the
  logits and the labels as they were.
-/
import proofs.«403744_j34471407518048_4_alg».proof.Proof.RefSide

set_option maxRecDepth 65536

noncomputable section

namespace Cert.ReferenceIdeal.RefValue

open Cert.ReferenceIdeal Cert.ReferenceIdeal.Gen Cert.ReferenceIdeal.ValueP Idealize.ShloMosaic Idealize.ShloMosaic.TcCoe
open Idealize.SL.Sem Idealize.ShloMosaic.StableHlo Idealize.ShloMosaic.ValueIdx Cert.XEnt

set_option maxHeartbeats 2000000 in
/-- The logits end as launched. -/
theorem ref_arg0 (m : (ℓ : Loc nD τ sig) → Buf (Elt Ideal) ℓ) (c : Dev nD) :
    after (ops (F := Ideal)) (launchContents m c) (Proc.devRef .tc main_arg0) = m ((c.tc : Thread nD τ).loc main_arg0) := by
  rw [ops_eq]
  after_results_simp <;> rfl

set_option maxHeartbeats 2000000 in
/-- The labels end as launched. -/
theorem ref_arg1 (m : (ℓ : Loc nD τ sig) → Buf (Elt Ideal) ℓ) (c : Dev nD) :
    after (ops (F := Ideal)) (launchContents m c) (Proc.devRef .tc main_arg1) = m ((c.tc : Thread nD τ).loc main_arg1) := by
  rw [ops_eq]
  after_results_simp <;> rfl

end Cert.ReferenceIdeal.RefValue

end
-- ==== Proof.Finite.lean ====
/-
  The precondition read: every logit is a real number.

  The precondition says that the conjunction, over all entries, of |x| < +∞ is true; at the ideal instance an entry
  whose absolute value is below ⊤ is neither ⊤ nor ⊥, so it is the coercion of a real.
-/
import proofs.«403744_j34471407518048_4_alg».proof.Pre_finite_inputs
import Idealize.ShloMosaic.PureOps.Ideal
import Idealize.ShloMosaic.Lib.ValueIdx
import Idealize.ShloMosaic.Lib.ReduceAll

noncomputable section

namespace Cert.XEnt

open Idealize.ShloMosaic Idealize.ShloMosaic.ValueIdx

/-- The scalar shape has exactly one index. -/
instance subsingleton_scalar_idx : Subsingleton Cert.Pre_finite_inputs.S_.Idx :=
  ⟨fun _ _ => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value (the larger of itself and its negation) is below ⊤ is a real. -/
theorem real_of_abs_lt_top (x : EReal) (hx : max x (-x) < ⊤) : ∃ r : ℝ, x = (r : EReal) := by
  induction x using EReal.rec with
  | bot => simp at hx
  | coe r => exact ⟨r, rfl⟩
  | top => simp at hx

/-- Under the precondition every entry of the array of logits is a real number. -/
theorem real_of_pre [Cert.Pre_finite_inputs.Facts] (X : FVec Ideal Cert.Pre_finite_inputs.S4096x50257 .f32)
    (t : IVec Cert.Pre_finite_inputs.S4096 32)
    (h : Cert.Pre_finite_inputs.fn (F := Ideal) X t = fun _ => 1#1) :
    ∀ i, ∃ r : ℝ, X i = (r : EReal) := by
  intro i
  have h0 := congrFun h ValueIdx.ix0
  dsimp only [Cert.Pre_finite_inputs.fn] at h0
  have hi := Host.reduce_andi_all _ _ _ _ _ h0 i
  have hc : Ideal.cmp .olt (max (X i) (-(X i))) (Ideal.ofBits .f32 0x7F800000#32) = 1#1 := hi
  rw [ofBits_inf] at hc
  have hlt : max (X i) (-(X i)) < (⊤ : EReal) := by
    by_contra hn
    simp [Ideal.cmp, hn] at hc
  exact real_of_abs_lt_top _ hlt

end Cert.XEnt

end
-- ==== Proof.SumLaws.lean ====
/-
  Sums over the rows: the two halves of the blocks together cover every row once, and a sum of differences with
  real subtrahends is the difference of the sums.
-/
import proofs.«403744_j34471407518048_4_alg».proof.Proof.Spec

noncomputable section

namespace Cert.XEnt

open Idealize.ShloMosaic Idealize.ShloMosaic.ValueIdx

/-- A sum over n blocks of B consecutive indices each is the sum over the first n · B indices: index b of the
    whole is index r of block k with b = B · k + r. Only commutativity and associativity of + are used. -/
theorem sum_range_blocks_nat {M : Type*} [AddCommMonoid M] (f : ℕ → M) (B n : ℕ) :
    ∑ k ∈ Finset.range n, ∑ r ∈ Finset.range B, f (B * k + r) = ∑ b ∈ Finset.range (n * B), f b := by
  induction n with
  | zero => simp
  | succ n ih =>
    rw [Finset.sum_range_succ, ih, Nat.succ_mul, Finset.sum_range_add, Nat.mul_comm n B]

/-- Row number b below 4096 is row b of the array. -/
theorem rowN_val (X : Logits) (b : Fin 4096) : rowN X b.val = rowOf X b := by
  unfold rowN
  rw [dif_pos b.isLt]

/-- The two halves' sums over their 16 blocks of 128 rows add up to the sum over all 4096 rows. -/
theorem halves_total (X : Logits) :
    halfSum X 0 15 + halfSum X 1 15 = ∑ b : Fin 4096, lse (rowOf X b) := by
  -- every sum becomes a sum over an initial segment of the naturals of f b = lse (row number b)
  have hblock : ∀ t : ℕ, blockLse X t = ∑ r ∈ Finset.range 128, lse (rowN X (128 * t + r)) := by
    intro t
    unfold blockLse
    exact Fin.sum_univ_eq_sum_range (fun r => lse (rowN X (128 * t + r))) 128
  -- the first half is rows 0 .. 2047
  have h0 : halfSum X 0 15 = ∑ b ∈ Finset.range 2048, lse (rowN X b) := by
    unfold halfSum
    have := sum_range_blocks_nat (fun b => lse (rowN X b)) 128 16
    simp only [hblock, Nat.mul_zero, Nat.zero_add]
    exact this
  -- the second half is rows 2048 .. 4095
  have h1 : halfSum X 1 15 = ∑ b ∈ Finset.range 2048, lse (rowN X (2048 + b)) := by
    unfold halfSum
    have := sum_range_blocks_nat (fun b => lse (rowN X (2048 + b))) 128 16
    simp only [hblock, Nat.mul_one]
    rw [← this]
    refine Finset.sum_congr rfl fun k _ => Finset.sum_congr rfl fun r _ => ?_
    have e : 128 * (16 + k) + r = 2048 + (128 * k + r) := by omega
    rw [e]
  rw [h0, h1, ← Finset.sum_range_add (fun b => lse (rowN X b)) 2048 2048,
    ← Fin.sum_univ_eq_sum_range (fun b => lse (rowN X b)) (2048 + 2048)]
  exact Finset.sum_congr rfl fun b _ => by rw [rowN_val]

/-- THE BRIDGE. With g b the gathered logit of row b (or -∞ where the label is out of range) and every row's
    log-sum-exp real: the sum of the gathered logits minus the total of the log-sum-exps is the sum over the rows of
    (gathered logit - log-sum-exp), the entry of the log-softmax the reference gathers. -/
theorem total_bridge (g : Fin 4096 → EReal) (L : Fin 4096 → ℝ) :
    (0 + ∑ b, g b) - ∑ b, ((L b : ℝ) : EReal) = 0 + ∑ b, (g b - ((L b : ℝ) : EReal)) := by
  -- the negative of a finite sum of reals is the sum of the negatives, also after the coercion
  have hneg : -(∑ b, ((L b : ℝ) : EReal)) = ∑ b, -((L b : ℝ) : EReal) := by
    rw [← OnlineSoftmax.coe_sum, ← EReal.coe_neg, ← Finset.sum_neg_distrib, OnlineSoftmax.coe_sum]
    exact Finset.sum_congr rfl fun b _ => EReal.coe_neg (L b)
  simp only [zero_add, sub_eq_add_neg]
  rw [Finset.sum_add_distrib, hneg]

end Cert.XEnt

end
-- ==== Proof.Bridge.lean ====
/-
  The two programs' inner scalars agree.

  With every logit real, each row's log-sum-exp is real, so the sum over the rows of (gathered logit − log-sum-exp) is
  the sum of the gathered logits minus the sum of the log-sum-exps; and the latter, taken over all 4096 rows, is what
  the two halves of the grid accumulate between them. The gathered logits may be -∞ (a label out of range): nothing
  is asked of them.
-/
import proofs.«403744_j34471407518048_4_alg».proof.Proof.SpecLaws
import proofs.«403744_j34471407518048_4_alg».proof.Proof.SumLaws

noncomputable section

namespace Cert.XEnt

open Idealize.ShloMosaic Idealize.ShloMosaic.ValueIdx

/-- Every row of an array of real logits has a real log-sum-exp. -/
theorem row_lse_real (X : Logits) (hX : ∀ i, ∃ r : ℝ, X i = (r : EReal)) (b : Fin 4096) :
    ∃ L : ℝ, lse (rowOf X b) = (L : EReal) := by
  choose xr hxr using hX
  have e : rowOf X b = fun j => ((xr (ix2 b j) : ℝ) : EReal) := funext fun j => hxr (ix2 b j)
  rw [e]
  exact lse_real fun j => xr (ix2 b j)

/-- The reference's inner scalar is the kernel program's. -/
theorem inner_bridge (X : Logits) (hX : ∀ i, ∃ r : ℝ, X i = (r : EReal)) (g : Fin 4096 → EReal) :
    0 + ∑ b, (g b - lse (rowOf X b)) = (0 + ∑ b, g b) - (halfSum X 0 15 + halfSum X 1 15) := by
  choose L hL using row_lse_real X hX
  rw [halves_total]
  have e1 : ∑ b, (g b - lse (rowOf X b)) = ∑ b, (g b - ((L b : ℝ) : EReal)) :=
    Finset.sum_congr rfl fun b _ => by rw [hL b]
  have e2 : ∑ b : Fin 4096, lse (rowOf X b) = ∑ b, ((L b : ℝ) : EReal) :=
    Finset.sum_congr rfl fun b _ => hL b
  rw [e1, e2]
  exact (total_bridge g L).symm

end Cert.XEnt

end
-- ==== Proof.lean ====
/-
  Mean cross-entropy of 4096 rows of 50257 logits against integer labels: the kernel program and the reference
  compute the same extended real when every logit is finite.

  The reference takes the log-softmax of every row (the logit minus the row's log-sum-exp, computed with the row's
  maximum), gathers one entry per row at the row's label — a negative label wrapped once, a label out of range
  giving -∞ —, sums, negates and divides by 4096. The kernel program gathers the logits themselves, sums them, and
  separately streams the array through a kernel that computes every row's log-sum-exp by an online softmax over 24
  chunks of 2048 columns and a last chunk of 1105, summing them block by block into one accumulator per half of the
  rows; the host then subtracts the two halves' totals from the sum of gathered logits, negates and divides by 4096.

  Per row the online softmax ends at the row's maximum and its sum of shifted exponentials, so its log-sum-exp is the
  reference's; the log-sum-exps are real, so the sum over the rows of (gathered logit − log-sum-exp) splits into the
  sum of the gathered logits minus the sum of the log-sum-exps, whatever the gathered logits are; and the two halves'
  totals add up to the sum over all rows. The three frames: the two kernel programs' are their frame runs; the
  reference's is its run with the result dropped. The idealization rewrote nothing, so the preservation claim is empty.
-/
import proofs.«403744_j34471407518048_4_alg».proof.Defs
import proofs.«403744_j34471407518048_4_alg».proof.Proof.Gen.Kernel
import proofs.«403744_j34471407518048_4_alg».proof.Proof.Gen.Kernel.Frame
import proofs.«403744_j34471407518048_4_alg».proof.Proof.Gen.KernelIdeal
import proofs.«403744_j34471407518048_4_alg».proof.Proof.Gen.KernelIdeal.Frame
import proofs.«403744_j34471407518048_4_alg».proof.Proof.Gen.ReferenceIdeal
import proofs.«403744_j34471407518048_4_alg».proof.Proof.Gen.Pre_finite_inputs
import proofs.«403744_j34471407518048_4_alg».proof.Proof.KernelRun
import proofs.«403744_j34471407518048_4_alg».proof.Proof.RefSide
import proofs.«403744_j34471407518048_4_alg».proof.Proof.RefArgs
import proofs.«403744_j34471407518048_4_alg».proof.Proof.Finite
import proofs.«403744_j34471407518048_4_alg».proof.Proof.Bridge
import Idealize.ShloMosaic.Adequacy
import Idealize.ShloMosaic.Init

set_option maxRecDepth 65536

noncomputable section

namespace Cert.Proof

open Idealize.ShloMosaic Idealize.SL.Sem Idealize.ShloMosaic.TcCoe Idealize.ShloMosaic.StableHlo Idealize.ShloMosaic.ValueIdx
open Cert.XEnt

/-- The word-level kernel program runs and keeps its arguments: its frame run. -/
theorem frame_k : @Cert.frame_Kernel Cert.Kernel.Gen.facts Cert.Pre_finite_inputs.Gen.facts :=
  fun m ρ _ => Cert.Kernel.Gen.frame m ρ

/-- The idealized kernel program runs and keeps its arguments: its frame run. -/
theorem frame_ki : @Cert.frame_KernelIdeal Cert.KernelIdeal.Gen.facts Cert.Pre_finite_inputs.Gen.facts :=
  fun m ρ _ => Cert.KernelIdeal.Gen.frame m ρ

/-- The reference runs and keeps its arguments: its run, with the result dropped. -/
theorem frame_ri : @Cert.frame_ReferenceIdeal Cert.ReferenceIdeal.Gen.facts Cert.Pre_finite_inputs.Gen.facts :=
  fun m ρ _ => (θ_run Cert.ReferenceIdeal.defs _ _).mono
    (fun _ h c => ⟨(h c Cert.ReferenceIdeal.main_arg0).trans (Cert.ReferenceIdeal.RefValue.ref_arg0 m c),
      (h c Cert.ReferenceIdeal.main_arg1).trans (Cert.ReferenceIdeal.RefValue.ref_arg1 m c)⟩)
    (Cert.ReferenceIdeal.ValueP.run (F := Ideal) m ρ)

/-- From memories that agree on finite logits and on the labels, both programs end at the same extended real. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hXK : ∀ (c : Dev Cert.KernelIdeal.nD) i, ∃ r : ℝ, Cert.KernelIdeal.Body.logits m c i = (r : EReal) :=
    fun c => real_of_pre _ _ (hpre c)
  refine ⟨fun c => meanNeg (Cert.KernelIdeal.Body.gatheredSum m c
      - (halfSum (Cert.KernelIdeal.Body.logits m c) 0 15 + halfSum (Cert.KernelIdeal.Body.logits m c) 1 15)),
    Cert.KernelIdeal.Body.kernel_run m ρ hXK, ?_⟩
  refine (θ_run Cert.ReferenceIdeal.defs _ _).mono
    (fun _ h c => ⟨(h c Cert.ReferenceIdeal.main_v6).trans ?_,
      (h c Cert.ReferenceIdeal.main_arg0).trans (Cert.ReferenceIdeal.RefValue.ref_arg0 m' c),
      (h c Cert.ReferenceIdeal.main_arg1).trans (Cert.ReferenceIdeal.RefValue.ref_arg1 m' c)⟩)
    (Cert.ReferenceIdeal.ValueP.run (F := Ideal) m' ρ')
  have a0 : launchContents m' c (Proc.devRef .tc Cert.ReferenceIdeal.main_arg0) = Cert.KernelIdeal.Body.logits m c := (hagree c).1
  have a1 : launchContents m' c (Proc.devRef .tc Cert.ReferenceIdeal.main_arg1) = Cert.KernelIdeal.Body.labels m c := (hagree c).2
  have hX' : ∀ i, ∃ r : ℝ, launchContents m' c (Proc.devRef .tc Cert.ReferenceIdeal.main_arg0) i = (r : EReal) := by
    rw [a0]; exact hXK c
  rw [Cert.ReferenceIdeal.RefValue.ref_value m' c hX', a0, a1]
  exact congrArg meanNeg (inner_bridge (Cert.KernelIdeal.Body.logits m c) (hXK c) _)

/-- The certificate's claim: the three frames, the empty preservation claim, and the agreement of the results. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
